-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x512 : Shape := ⟨4, ![8, 64, 512, 512]⟩
abbrev S8x128 : Shape := ⟨2, ![8, 128]⟩
abbrev S64x8 : Shape := ⟨2, ![64, 8]⟩
abbrev S_ : Shape := ⟨0, ![]⟩

class Facts : Prop where
  bcast_S_S8x64x512x512 : S_.BroadcastsInDim S8x64x512x512 (![] : Fin 0 → Fin S8x64x512x512.rank)
  reducesTo_S8x64x512x512_S_d0_1_2_3 : S8x64x512x512.ReducesTo [0, 1, 2, 3] S_
  h_S_ : 0 < S_.numel
  bcast_S_S8x128 : S_.BroadcastsInDim S8x128 (![] : Fin 0 → Fin S8x128.rank)
  reducesTo_S8x128_S_d0_1 : S8x128.ReducesTo [0, 1] S_
  bcast_S_S64x8 : S_.BroadcastsInDim S64x8 (![] : Fin 0 → Fin S64x8.rank)
  reducesTo_S64x8_S_d0_1 : S64x8.ReducesTo [0, 1] S_

variable [Facts]

def fn {F : FTy → Type} [FloatOps F] (main_arg0 : FVec F S8x64x512x512 .f32) (main_arg1 : FVec F S8x128 .f32) (main_arg2 : FVec F S64x8 .f32) : IVec S_ 1 :=
  let main_v0 : FVec F S8x64x512x512 .f32 := Host.absf main_arg0
  let main_cst : FVec F S_ .f32 := constant S_ .f32 0x7F800000#32
  let main_v1 : FVec F S8x64x512x512 .f32 := broadcastInDim S8x64x512x512 ![] bcast_S_S8x64x512x512 main_cst
  let main_v2 : IVec S8x64x512x512 1 := cmpf .olt main_v0 main_v1
  let main_c : IVec S_ 1 := constantI S_ 1 1#1
  let main_v3 : IVec S_ 1 := (fun x v => Host.reduce IntOp.andi x v reducesTo_S8x64x512x512_S_d0_1_2_3 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S64x8 .f32 := Host.absf main_arg2
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  main_v13
-- ==== Kernel.lean ====
abbrev S8x64x512x512 : Shape := ⟨4, ![8, 64, 512, 512]⟩
abbrev S8x128 : Shape := ⟨2, ![8, 128]⟩
abbrev S64x8 : Shape := ⟨2, ![64, 8]⟩
abbrev S8x64 : Shape := ⟨2, ![8, 64]⟩
abbrev S8x64x16x512 : Shape := ⟨4, ![8, 64, 16, 512]⟩
abbrev S8x64x16 : Shape := ⟨3, ![8, 64, 16]⟩
abbrev S128x8 : Shape := ⟨2, ![128, 8]⟩
abbrev S8x8 : Shape := ⟨2, ![8, 8]⟩
abbrev S_ : Shape := ⟨0, ![]⟩
abbrev S8x64x8x512 : Shape := ⟨4, ![8, 64, 8, 512]⟩
abbrev S8x64x1x1 : Shape := ⟨4, ![8, 64, 1, 1]⟩

abbrev nBuf : Space → Nat
  | .hbm => 32
  | .vmem => 11
  | .smem => 0
  | _ => 0

abbrev bufTy : (tb : Table) → Fin (tcTables nBuf tb) → BufTy
  | .hbm, ⟨0, _⟩ => ⟨S8x64x512x512, .f32⟩
  | .hbm, ⟨1, _⟩ => ⟨S8x128, .f32⟩
  | .hbm, ⟨2, _⟩ => ⟨S64x8, .f32⟩
  | .hbm, ⟨3, _⟩ => ⟨S8x64, .f32⟩
  | .hbm, ⟨4, _⟩ => ⟨S8x64, .f32⟩
  | .hbm, ⟨5, _⟩ => ⟨S8x128, .f32⟩
  | .hbm, ⟨6, _⟩ => ⟨S128x8, .f32⟩
  | .hbm, ⟨7, _⟩ => ⟨S8x8, .f32⟩
  | .hbm, ⟨8, _⟩ => ⟨S_, .f32⟩
  | .hbm, ⟨9, _⟩ => ⟨S8x8, .f32⟩
  | .hbm, ⟨10, _⟩ => ⟨S8x8, .i1⟩
  | .hbm, ⟨11, _⟩ => ⟨S_, .f32⟩
  | .hbm, ⟨12, _⟩ => ⟨S8x8, .f32⟩
  | .hbm, ⟨13, _⟩ => ⟨S8x8, .f32⟩
  | .hbm, ⟨14, _⟩ => ⟨S8x8, .f32⟩
  | .hbm, ⟨15, _⟩ => ⟨S8x64, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S_, .f32⟩
  | .hbm, ⟨20, _⟩ => ⟨S8x64, .f32⟩
  | .hbm, ⟨21, _⟩ => ⟨S8x64, .f32⟩
  | .hbm, ⟨22, _⟩ => ⟨S_, .f32⟩
  | .hbm, ⟨23, _⟩ => ⟨S8x64, .f32⟩
  | .hbm, ⟨24, _⟩ => ⟨S8x64, .f32⟩
  | .hbm, ⟨25, _⟩ => ⟨S_, .f32⟩
  | .hbm, ⟨26, _⟩ => ⟨S8x64, .f32⟩
  | .hbm, ⟨27, _⟩ => ⟨S8x64, .f32⟩
  | .hbm, ⟨28, _⟩ => ⟨S_, .f32⟩
  | .hbm, ⟨29, _⟩ => ⟨S8x64, .f32⟩
  | .hbm, ⟨30, _⟩ => ⟨S8x64, .f32⟩
  | .hbm, ⟨31, _⟩ => ⟨S8x64x512x512, .f32⟩
  | .local _ .vmem, ⟨0, _⟩ => ⟨S8x64x16x512, .f32⟩
  | .local _ .vmem, ⟨1, _⟩ => ⟨S8x64x16x512, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64x8x512, .f32⟩
  | .local _ .vmem, ⟨7, _⟩ => ⟨S8x64x8x512, .f32⟩
  | .local _ .vmem, ⟨8, _⟩ => ⟨S8x64, .f32⟩
  | .local _ .vmem, ⟨9, _⟩ => ⟨S8x64x8x512, .f32⟩
  | .local _ .vmem, ⟨10, _⟩ => ⟨S8x64x8x512, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_15 : BitVec 32 := 0#32
  let v20 : BitVec 1 := Scalar.cmpi .ne v19 c0_i32_15
  v20

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S8x64x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x64x8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x16x512_S8x64x16x512_0_0_0_0 : ∀ a, (![0, 0, 0, 0] : Fin 4 → Nat) a + S8x64x16x512.size a ≤ S8x64x16x512.size a
  h_S8x64x16x512 : 0 < S8x64x16x512.numel
  reduces_S8x64x16x512_S8x64x16 : S8x64x16x512.Reduces [3] S8x64x16
  reduces_S8x64x16_S8x64 : S8x64x16.Reduces [2] S8x64
  concatenates_S8x64_S8x64_S8x128_d1 : Shape.Concatenates [S8x64, S8x64] S8x128 1
  transposes_S8x128_S128x8_1_0 : S8x128.Transposes [1, 0] S128x8
  bcast_S_S8x8 : S_.BroadcastsInDim S8x8 (![] : Fin 0 → Fin S8x8.rank)
  transposes_S64x8_S8x64_1_0 : S64x8.Transposes [1, 0] S8x64
  bcast_S_S8x64 : S_.BroadcastsInDim S8x64 (![] : Fin 0 → Fin S8x64.rank)
  shapeCasts_S8x64_S8x64x1x1 : S8x64.ShapeCasts S8x64x1x1
  shapeCasts_S8x64x1x1_S8x64x1x1 : S8x64x1x1.ShapeCasts S8x64x1x1
  broadcasts_S8x64x1x1_S8x64x8x512 : S8x64x1x1.Broadcasts S8x64x8x512
  inb_S8x64x8x512_S8x64x8x512_0_0_0_0 : ∀ a, (![0, 0, 0, 0] : Fin 4 → Nat) a + S8x64x8x512.size a ≤ S8x64x8x512.size a
  h_S8x64x8x512 : 0 < S8x64x8x512.numel
  dot_S8x128_S128x8_S8x8_1_0_0_1_n_n_wf : DotDims.WF S8x128 S128x8 S8x8 [1] [0] [0] [1] [] []
  dot_S8x8_S8x64_S8x64_1_0_0_1_n_n_wf : DotDims.WF S8x8 S8x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x16x512.size a ≤ S8x64x512x512.size a
  hwx0_0 : ∀ i : grid0.Coords, EltTy.bits .f32 = 32 ∨ (Rect.block (s := S8x64x512x512) S8x64x16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x8x512.size a ≤ S8x64x512x512.size a
  hwx1_0 : ∀ i : grid1.Coords, EltTy.bits .f32 = 32 ∨ (Rect.block (s := S8x64x512x512) S8x64x8x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S8x64.size a
  hwx1_1 : ∀ i : grid1.Coords, EltTy.bits .f32 = 32 ∨ (Rect.block (s := S8x64) S8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64x8x512.size a ≤ S8x64x512x512.size a
  hwx1_2 : ∀ i : grid1.Coords, EltTy.bits .f32 = 32 ∨ (Rect.block (s := S8x64x512x512) S8x64x8x512.size (cc1_transform_2 i) (hinb1_2 i)).WholeWords (EltTy.packing .f32)

variable [Facts₀]

def dot_S8x128_S128x8_S8x8_1_0_0_1_n_n : DotDims S8x128 S128x8 S8x8 where
  lhsContracting := [1]
  rhsContracting := [0]
  lhsNonContracting := [0]
  rhsNonContracting := [1]
  lhsBatch := []
  rhsBatch := []
  wf := dot_S8x128_S128x8_S8x8_1_0_0_1_n_n_wf
def dot_S8x8_S8x64_S8x64_1_0_0_1_n_n : DotDims S8x8 S8x64 S8x64 where
  lhsContracting := [1]
  rhsContracting := [0]
  lhsNonContracting := [0]
  rhsNonContracting := [1]
  lhsBatch := []
  rhsBatch := []
  wf := dot_S8x8_S8x64_S8x64_1_0_0_1_n_n_wf

abbrev win0_0 : Pipeline.Window sig grid0 :=
  Pipeline.Window.ofSpec (Memref.whole main_arg0) S8x64x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x64x8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8x64x8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x512x512 : Shape := ⟨4, ![8, 64, 512, 512]⟩
abbrev S8x128 : Shape := ⟨2, ![8, 128]⟩
abbrev S64x8 : Shape := ⟨2, ![64, 8]⟩
abbrev S_ : Shape := ⟨0, ![]⟩
abbrev S8x64 : Shape := ⟨2, ![8, 64]⟩
abbrev S128x8 : Shape := ⟨2, ![128, 8]⟩
abbrev S8x8 : Shape := ⟨2, ![8, 8]⟩
abbrev S8x64x1x1 : Shape := ⟨4, ![8, 64, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S8x128, .f32⟩
  | .hbm, ⟨2, _⟩ => ⟨S64x8, .f32⟩
  | .hbm, ⟨3, _⟩ => ⟨S_, .f32⟩
  | .hbm, ⟨4, _⟩ => ⟨S8x64, .f32⟩
  | .hbm, ⟨5, _⟩ => ⟨S_, .f32⟩
  | .hbm, ⟨6, _⟩ => ⟨S8x64, .f32⟩
  | .hbm, ⟨7, _⟩ => ⟨S8x64, .f32⟩
  | .hbm, ⟨8, _⟩ => ⟨S_, .f32⟩
  | .hbm, ⟨9, _⟩ => ⟨S8x64, .f32⟩
  | .hbm, ⟨10, _⟩ => ⟨S8x128, .f32⟩
  | .hbm, ⟨11, _⟩ => ⟨S128x8, .f32⟩
  | .hbm, ⟨12, _⟩ => ⟨S8x8, .f32⟩
  | .hbm, ⟨13, _⟩ => ⟨S_, .f32⟩
  | .hbm, ⟨14, _⟩ => ⟨S8x8, .f32⟩
  | .hbm, ⟨15, _⟩ => ⟨S8x8, .i1⟩
  | .hbm, ⟨16, _⟩ => ⟨S_, .f32⟩
  | .hbm, ⟨17, _⟩ => ⟨S8x8, .f32⟩
  | .hbm, ⟨18, _⟩ => ⟨S8x8, .f32⟩
  | .hbm, ⟨19, _⟩ => ⟨S8x8, .f32⟩
  | .hbm, ⟨20, _⟩ => ⟨S8x64, .f32⟩
  | .hbm, ⟨21, _⟩ => ⟨S8x64, .f32⟩
  | .hbm, ⟨22, _⟩ => ⟨S8x64, .f32⟩
  | .hbm, ⟨23, _⟩ => ⟨S8x64, .f32⟩
  | .hbm, ⟨24, _⟩ => ⟨S_, .f32⟩
  | .hbm, ⟨25, _⟩ => ⟨S8x64, .f32⟩
  | .hbm, ⟨26, _⟩ => ⟨S8x64, .f32⟩
  | .hbm, ⟨27, _⟩ => ⟨S_, .f32⟩
  | .hbm, ⟨28, _⟩ => ⟨S8x64, .f32⟩
  | .hbm, ⟨29, _⟩ => ⟨S8x64, .f32⟩
  | .hbm, ⟨30, _⟩ => ⟨S_, .f32⟩
  | .hbm, ⟨31, _⟩ => ⟨S8x64, .f32⟩
  | .hbm, ⟨32, _⟩ => ⟨S8x64, .f32⟩
  | .hbm, ⟨33, _⟩ => ⟨S_, .f32⟩
  | .hbm, ⟨34, _⟩ => ⟨S8x64, .f32⟩
  | .hbm, ⟨35, _⟩ => ⟨S8x64, .f32⟩
  | .hbm, ⟨36, _⟩ => ⟨S8x64x1x1, .f32⟩
  | .hbm, ⟨37, _⟩ => ⟨S8x64x512x512, .f32⟩
  | .hbm, ⟨38, _⟩ => ⟨S8x64x512x512, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  reducesTo_S8x64x512x512_S8x64_d2_3 : S8x64x512x512.ReducesTo [2, 3] S8x64
  h_S_ : 0 < S_.numel
  bcast_S_S8x64 : S_.BroadcastsInDim S8x64 (![] : Fin 0 → Fin S8x64.rank)
  concatenates_S8x64_S8x64_S8x128_d1 : Shape.Concatenates [S8x64, S8x64] S8x128 1
  transposes_S8x128_S128x8_1_0 : S8x128.Transposes [1, 0] S128x8
  bcast_S_S8x8 : S_.BroadcastsInDim S8x8 (![] : Fin 0 → Fin S8x8.rank)
  transposes_S64x8_S8x64_1_0 : S64x8.Transposes [1, 0] S8x64
  bcast_S8x64_S8x64x1x1_0_1 : S8x64.BroadcastsInDim S8x64x1x1 (![0, 1] : Fin 2 → Fin S8x64x1x1.rank)
  bcast_S8x64x1x1_S8x64x512x512_0_1_2_3 : S8x64x1x1.BroadcastsInDim S8x64x512x512 (![0, 1, 2, 3] : Fin 4 → Fin S8x64x512x512.rank)
  dot_S8x128_S128x8_S8x8_1_0_0_1_n_n_wf : DotDims.WF S8x128 S128x8 S8x8 [1] [0] [0] [1] [] []
  dot_S8x8_S8x64_S8x64_1_0_0_1_n_n_wf : DotDims.WF S8x8 S8x64 S8x64 [1] [0] [0] [1] [] []

variable [Facts₀]

def dot_S8x128_S128x8_S8x8_1_0_0_1_n_n : DotDims S8x128 S128x8 S8x8 where
  lhsContracting := [1]
  rhsContracting := [0]
  lhsNonContracting := [0]
  rhsNonContracting := [1]
  lhsBatch := []
  rhsBatch := []
  wf := dot_S8x128_S128x8_S8x8_1_0_0_1_n_n_wf
def dot_S8x8_S8x64_S8x64_1_0_0_1_n_n : DotDims S8x8 S8x64 S8x64 where
  lhsContracting := [1]
  rhsContracting := [0]
  lhsNonContracting := [0]
  rhsNonContracting := [1]
  lhsBatch := []
  rhsBatch := []
  wf := dot_S8x8_S8x64_S8x64_1_0_0_1_n_n_wf

class Facts : Prop extends Facts₀ where

variable [Facts]
-- ==== Proof.KB.Cond.lean ====
/-
  The reduction kernel runs on a grid of 32 points along H. Its two branches test the grid coordinate: the first
  (reset of the two running accumulators) is taken exactly at point 0, the second (the two results stored) exactly
  at point 31. This module states both tests in closed form over the grid, says at which points the two result
  windows are idle and not written back (every point but the last), and names the staging and scratch memrefs the
  body is called with.
-/
import proofs.«167075_j11914239279387_1_alg».proof.Proof.Gen.Kernel.Launch
import proofs.«167075_j11914239279387_1_alg».proof.Proof.Gen.Kernel.Skeleton
import proofs.«167075_j11914239279387_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the reduction body -/

/-- The reset branch's test, from the grid coordinate. -/
abbrev cond0_0 (i : grid0.Coords) : Prop :=
  (Scalar.cmpi .ne (Scalar.extui (Scalar.cmpi .eq (BitVec.ofNat 32 (i 0).val) 0#32)) 0#32) = 1#1
/-- It holds exactly at the first point. -/
theorem hcond0_0 : ∀ t : Fin cfg0.N, cond0_0 (grid0.coords t) ↔ t.val = 0 :=
  (by decide +kernel : ∀ t : Fin grid0.N, cond0_0 (grid0.coords t) ↔ t.val = 0)

/-- The result branch's test, from the grid coordinate. -/
abbrev cond0_1 (i : grid0.Coords) : Prop := k0_cond2 i = 1#1
/-- It holds exactly at the last point. -/
theorem hcond0_1 : ∀ t : Fin cfg0.N, cond0_1 (grid0.coords t) ↔ t.val = 31 :=
  (by decide +kernel : ∀ t : Fin grid0.N, cond0_1 (grid0.coords t) ↔ t.val = 31)

/-! ## Where the result windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the bodies are called with -/

abbrev ms0_0 (t : Fin cfg0.N) : Memref sig .tc .vmem S8x64x16x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x64 .f32 := win0_2.stage (cfg0.slots t 2)
abbrev hs0_2 (t : Fin cfg0.N) : (ms0_2 t).IsWhole := hstage0_2 ((cfg0.slots t 2).cast nbuf0_2)
/-- The two scratch accumulators: whole scoped buffers of the kernel's own. -/
abbrev scM0_0 : Memref sig .tc .vmem S8x64 .f32 := Memref.whole cc0_scratch0
abbrev scM0_1 : Memref sig .tc .vmem S8x64 .f32 := Memref.whole cc0_scratch1

end Cert.Kernel.Frm

end
-- ==== Proof.KB.ReduceRun.lean ====
/-
  The reduction body, run once per control case on whole staging memrefs.

  At every point the body loads the input block x (8 x 64 x 16 x 512), forms its sum and its maximum over the last two
  axes (one axis at a time), adds the sum to the running sum kept in the first scratch and takes the maximum with the
  running maximum kept in the second scratch. At the first point both scratch buffers are first reset (zeros, and
  minus infinity); at the last point the running sum times 2^-18 and the running maximum are stored into the two
  result windows. The three lemmas below say what each buffer holds after the body in each of the three cases, as the
  skeleton's payloads of what the buffers held before.
-/
import proofs.«167075_j11914239279387_1_alg».proof.Proof.KB.Cond
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle at zero offsets of the buffer's own sizes, unmasked:
such a load reads the contents, and after such a store the buffer reads the stored value whatever was written
before. -/

private theorem hz2 : (![0, 0] : Fin 2 → ℕ) = fun _ => 0 := funext fun a => by fin_cases a <;> rfl
private theorem hz4 : (![0, 0, 0, 0] : Fin 4 → ℕ) = fun _ => 0 := funext fun a => by fin_cases a <;> rfl

/-- A whole-buffer load of a whole 8 x 64 memref holding `X` reads `X`. -/
private theorem load2 (M : Memref sig .tc .vmem S8x64 .f32) (h : M.IsWhole) (X : Vec F S8x64 .f32) :
    View.readAt (Elt F) M.view (Rect.unit (s := S8x64) ![0, 0] S8x64.size inb_S8x64_S8x64_0_0).toLoadRect (h.unread X) = X := by
  rw [View.readAt_eq_ld, h.read_unread]
  exact View.ld_unit_zero hz2 _ X

/-- A whole-buffer load of the whole input block's memref holding `X` reads `X`. -/
private theorem load4 (M : Memref sig .tc .vmem S8x64x16x512 .f32) (h : M.IsWhole) (X : Vec F S8x64x16x512 .f32) :
    View.readAt (Elt F) M.view (Rect.unit (s := S8x64x16x512) ![0, 0, 0, 0] S8x64x16x512.size inb_S8x64x16x512_S8x64x16x512_0_0_0_0).toLoadRect (h.unread X) = X := by
  rw [View.readAt_eq_ld, h.read_unread]
  exact View.ld_unit_zero hz4 _ X

/-- After a whole-buffer store of `w` (the last of the stores `⟨_, w⟩ :: L`) the memref reads `w`. -/
private theorem stored2 (M : Memref sig .tc .vmem S8x64 .f32) (f : M.view.ty.Contents (Elt F)) (w : Vec F S8x64 .f32)
    (L : List (View.Piece (Elt F) S8x64 .f32)) :
    M.view.read (Elt F) (M.view.writes (Elt F) f (⟨Rect.unit (s := S8x64) ![0, 0] S8x64.size inb_S8x64_S8x64_0_0, w⟩ :: L)) = w := by
  rw [View.read_writes_eq_canon _ _ _ (fun y => ⟨⟨Rect.unit (s := S8x64) ![0, 0] S8x64.size inb_S8x64_S8x64_0_0, w⟩, List.mem_cons_self,
    View.mem_set_unit_zero hz2 inb_S8x64_S8x64_0_0 y⟩)]
  exact View.canon_cons_unit_zero hz2 inb_S8x64_S8x64_0_0 w L

set_option maxHeartbeats 1000000 in
/-- FIRST POINT (reset taken, results not stored): the scratch buffers, found at anything, end at one block's sum
    over zeros and one block's maximum over minus infinity; the result windows are handed back untouched. -/
theorem run0_first (c : Dev nD) (i : grid0.Coords) (arg1 : Memref sig .tc .vmem S8x64x16x512 .f32) (harg1 : arg1.IsWhole)
    (arg2 : Memref sig .tc .vmem S8x64 .f32) (harg2 : arg2.IsWhole) (arg3 : Memref sig .tc .vmem S8x64 .f32) (harg3 : arg3.IsWhole)
    (arg4 : Memref sig .tc .vmem S8x64 .f32) (harg4 : arg4.IsWhole) (arg5 : Memref sig .tc .vmem S8x64 .f32) (harg5 : arg5.IsWhole)
    (hc0 : cond0_0 i) (hc1 : ¬cond0_1 i)
    (x0 : Vec F S8x64x16x512 .f32) (xi1 xi2 : Vec F S8x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay3 x0 (k0_pay1 (F := F))) ∗ owns (c : Thread nD τ) arg5 fullShare (k0_pay4 x0 (k0_pay2 (F := F)))) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    rotate_left
    · iexact H3
    · -- the update is the last store; the running sum it read is what the reset had just stored
      ipureintro
      refine (stored2 arg4 _ _ _).trans ?_
      sl_unfold_words
      rw [load4 arg1 harg1 x0, View.readCov_unit_zero (S := S8x64) _ hz2]
  iexists _; isplitr
  rotate_left
  · iexact H4
  · ipureintro
    refine (stored2 arg5 _ _ _).trans ?_
    sl_unfold_words
    rw [load4 arg1 harg1 x0, View.readCov_unit_zero (S := S8x64) _ hz2]

set_option maxHeartbeats 1000000 in
/-- A MIDDLE POINT (neither branch taken): the running sum s and the running maximum mx are updated by the block. -/
theorem run0_mid (c : Dev nD) (i : grid0.Coords) (arg1 : Memref sig .tc .vmem S8x64x16x512 .f32) (harg1 : arg1.IsWhole)
    (arg2 : Memref sig .tc .vmem S8x64 .f32) (harg2 : arg2.IsWhole) (arg3 : Memref sig .tc .vmem S8x64 .f32) (harg3 : arg3.IsWhole)
    (arg4 : Memref sig .tc .vmem S8x64 .f32) (harg4 : arg4.IsWhole) (arg5 : Memref sig .tc .vmem S8x64 .f32) (harg5 : arg5.IsWhole)
    (hc0 : ¬cond0_0 i) (hc1 : ¬cond0_1 i)
    (x0 : Vec F S8x64x16x512 .f32) (xi1 xi2 s mx : Vec F S8x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare s ∗ owns (c : Thread nD τ) arg5 fullShare mx
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay3 x0 s) ∗ owns (c : Thread nD τ) arg5 fullShare (k0_pay4 x0 mx)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    rotate_left
    · iexact H3
    · ipureintro
      refine (stored2 arg4 _ _ _).trans ?_
      rw [load4 arg1 harg1 x0, load2 arg4 harg4 s]
  iexists _; isplitr
  rotate_left
  · iexact H4
  · ipureintro
    refine (stored2 arg5 _ _ _).trans ?_
    rw [load4 arg1 harg1 x0, load2 arg5 harg5 mx]

set_option maxHeartbeats 1000000 in
/-- THE LAST POINT (results stored): after the update the first result window holds the scaled running sum, the
    second the running maximum. -/
theorem run0_last (c : Dev nD) (i : grid0.Coords) (arg1 : Memref sig .tc .vmem S8x64x16x512 .f32) (harg1 : arg1.IsWhole)
    (arg2 : Memref sig .tc .vmem S8x64 .f32) (harg2 : arg2.IsWhole) (arg3 : Memref sig .tc .vmem S8x64 .f32) (harg3 : arg3.IsWhole)
    (arg4 : Memref sig .tc .vmem S8x64 .f32) (harg4 : arg4.IsWhole) (arg5 : Memref sig .tc .vmem S8x64 .f32) (harg5 : arg5.IsWhole)
    (hc0 : ¬cond0_0 i) (hc1 : cond0_1 i)
    (x0 : Vec F S8x64x16x512 .f32) (s mx : Vec F S8x64 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s ∗ owns (c : Thread nD τ) arg5 fullShare mx
        ∗ (iprop(owns (c : Thread nD τ) arg1 fullShare x0 ∗ owns (c : Thread nD τ) arg2 fullShare (k0_pay5 (k0_pay3 x0 s)) ∗ owns (c : Thread nD τ) arg3 fullShare (k0_pay4 x0 mx)
            ∗ owns (c : Thread nD τ) arg4 fullShare (k0_pay3 x0 s) ∗ owns (c : Thread nD τ) arg5 fullShare (k0_pay4 x0 mx)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  obtain rfl := harg1.eq_unread hf0; obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr
    rotate_left
    · iexact H1
    · -- the stored value is the scaling of the running sum read back after its update
      ipureintro
      sl_unfold_words
      refine (stored2 arg2 _ _ _).trans ?_
      rw [View.readCov_unit_zero (S := S8x64) _ hz2, load4 arg1 harg1 x0, load2 arg4 harg4 s]
  isplitl [H2]
  · iexists _; isplitr
    rotate_left
    · iexact H2
    · -- the stored value is the running maximum read back after its update
      ipureintro
      sl_unfold_words
      refine (stored2 arg3 _ _ _).trans ?_
      rw [View.readCov_unit_zero (S := S8x64) _ hz2, load4 arg1 harg1 x0, load2 arg5 harg5 mx]
  isplitl [H3]
  · iexists _; isplitr
    rotate_left
    · iexact H3
    · ipureintro
      sl_unfold_words
      refine (stored2 arg4 _ _ _).trans ?_
      rw [load4 arg1 harg1 x0, load2 arg4 harg4 s]
  iexists _; isplitr
  rotate_left
  · iexact H4
  · ipureintro
    sl_unfold_words
    refine (stored2 arg5 _ _ _).trans ?_
    rw [load4 arg1 harg1 x0, load2 arg5 harg5 mx]

end Cert.Kernel.Frm

end
-- ==== Proof.KB.ReduceDat.lean ====
/-
  Region 0 (the reduction) as a pipeline: its proof data and its body obligation.

  The running sum and the running maximum after point n are defined by recursion on n from the input blocks
  (`acc0`): at point 0 one block's sum over zeros and one block's maximum over minus infinity, at point n + 1 the
  update of what point n left. Between points the two scratch buffers hold exactly that pair (the invariant
  `PhiS0`; before the first point they hold anything). The two result windows are idle at every point but the
  last, where they receive the scaled running sum and the running maximum.
-/
import proofs.«167075_j11914239279387_1_alg».proof.Proof.KB.ReduceRun

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum and the running maximum after point n. -/
def acc0 (c : Dev nD) : (n : ℕ) → n < cfg0.N → Vec F S8x64 .f32 × Vec F S8x64 .f32
  | 0, hn => (k0_pay3 (iblk0 V c 0 ⟨0, hn⟩) (k0_pay1 (F := F)), k0_pay4 (iblk0 V c 0 ⟨0, hn⟩) (k0_pay2 (F := F)))
  | n + 1, hn => (k0_pay3 (iblk0 V c 0 ⟨n + 1, hn⟩) (acc0 c n (Nat.lt_of_succ_lt hn)).1,
      k0_pay4 (iblk0 V c 0 ⟨n + 1, hn⟩) (acc0 c n (Nat.lt_of_succ_lt hn)).2)

theorem acc0_zero (c : Dev nD) (hn : 0 < cfg0.N) :
    acc0 V c 0 hn = (k0_pay3 (iblk0 V c 0 ⟨0, hn⟩) (k0_pay1 (F := F)), k0_pay4 (iblk0 V c 0 ⟨0, hn⟩) (k0_pay2 (F := F))) := rfl
theorem acc0_succ (c : Dev nD) (n : ℕ) (hn : n + 1 < cfg0.N) :
    acc0 V c (n + 1) hn = (k0_pay3 (iblk0 V c 0 ⟨n + 1, hn⟩) (acc0 V c n (Nat.lt_of_succ_lt hn)).1,
      k0_pay4 (iblk0 V c 0 ⟨n + 1, hn⟩) (acc0 V c n (Nat.lt_of_succ_lt hn)).2) := rfl

/-- The other kernel's five staging buffers (scoped, staged by no window of this kernel), each whole at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant before position n: before the first point the class invariant (every scoped buffer no
    window stages at anything, the generator register at some state); afterwards the same with the two scratch
    buffers at what the point before left. -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2
      ∗ otherStaging c ∗ (∃ r, prngReg c r))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay5 (acc0 V c t.val t.isLt).1
    | ⟨2, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay5 (acc0 V c t.val t.isLt).1 := by dsimp only [dat0]
theorem after0_2 (c : Dev nD) (t : Fin cfg0.N) : (dat0 V c).after 2 t = (acc0 V c t.val t.isLt).2 := by dsimp only [dat0]

/-! ## The invariant, position by position -/

/-- The class invariant with the two scratch buffers named: each whole at some contents, then the other kernel's
    staging buffers and the generator register. -/
private theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ otherStaging c)
          ∗ (∃ r, prngReg c r)) := by
  unfold Pipeline.ΦA otherStaging; rw [scopedRest0_eq]; simp only [scM0_0, scM0_1, owns_whole]; rfl

private theorem PhiS0_first (c : Dev nD) (n : ℕ) (h : n ≤ cfg0.N) (hz : n = 0) : PhiS0 V c n h = Pipeline.ΦA spec0 c := by
  subst hz; rfl

/-- Before position n + 1 the scratch buffers hold the pair point n left. -/
private theorem PhiS0_next (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2
      ∗ otherStaging c ∗ (∃ r, prngReg c r)) := rfl

/-- The same read backwards, at a position that is not the first. -/
private theorem PhiS0_later (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2
      ∗ otherStaging c ∗ (∃ r, prngReg c r)) := by
  cases n with
  | zero => exact absurd rfl hz
  | succ n => rfl

/-- The proof data's invariant when point t begins. -/
private theorem Phi_start0 (c : Dev nD) (t : Fin cfg0.N) : (dat0 V c).Φ t.castSucc = PhiS0 V c t.val (Nat.le_of_lt t.isLt) := by
  dsimp only [dat0]; simp only [Fin.coe_castSucc]

/-- The input window is fetched at every point, so its current staging buffer holds its block whatever it held. -/
private theorem before0_0 (c : Dev nD) (t : Fin cfg0.N) (d) : (dat0 V c).before 0 t d = iblk0 V c 0 t := by
  rw [(dat0 V c).before_fetched 0 t (fetch0_0 t) d]
  unfold Dat.fetched Dat.blockOf iblk0; rw [A_eq0]; rfl

/-- The pair after the first point: one block folded into the neutral elements. -/
private theorem acc0_at_first (c : Dev nD) (t : Fin cfg0.N) (h : t.val = 0) :
    acc0 V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact absurd h (Nat.succ_ne_zero n)

/-- The pair after a later point: that point's block folded into the pair the point before left. -/
private theorem acc0_at_later (c : Dev nD) (t : Fin cfg0.N) (h : t.val ≠ 0) :
    acc0 V c t.val t.isLt = (k0_pay3 (iblk0 V c 0 t) (acc0 V c (t.val - 1) (Nat.lt_of_le_of_lt (Nat.sub_le _ _) t.isLt)).1,
      k0_pay4 (iblk0 V c 0 t) (acc0 V c (t.val - 1) (Nat.lt_of_le_of_lt (Nat.sub_le _ _) t.isLt)).2) := by
  obtain ⟨n, hn⟩ := t
  cases n with
  | zero => exact absurd rfl h
  | succ n => rfl

/-! ## The body at a point -/

/-- What the body is handed at point t: the invariant, the core's debts, and each window's current staging buffer. -/
private def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it gives back. -/
private def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

/-- The input window is live everywhere: the body leaves its block where it found it. -/
private theorem leaves_in0 (c : Dev nD) (t : Fin cfg0.N) :
    (dat0 V c).leavesExact 0 t = owns (c : Thread nD τ) (ms0_0 t) fullShare (iblk0 V c 0 t) := by
  unfold Dat.leavesExact; rw [liveAt0_0 t, after0_0]

/-- A result window away from the last point is idle and not written back: its buffer returns as found. -/
private theorem leaves_idle0_1 (c : Dev nD) (t : Fin cfg0.N) (hc1 : ¬cond0_1 (grid0.coords t)) :
    (dat0 V c).leavesExact 1 t = iprop(∃ d, owns (c : Thread nD τ) (ms0_1 t) fullShare ((dat0 V c).before 1 t d)) :=
  Dat.leavesExact_idle (dat0 V c) 1 t (idleAt0_1 t hc1) (noFlush0_1 t hc1)
private theorem leaves_idle0_2 (c : Dev nD) (t : Fin cfg0.N) (hc1 : ¬cond0_1 (grid0.coords t)) :
    (dat0 V c).leavesExact 2 t = iprop(∃ d, owns (c : Thread nD τ) (ms0_2 t) fullShare ((dat0 V c).before 2 t d)) :=
  Dat.leavesExact_idle (dat0 V c) 2 t (idleAt0_2 t hc1) (noFlush0_2 t hc1)

/-- At the last point both result windows are live: each ends at what the proof data says. -/
private theorem leaves_live0_1 (c : Dev nD) (t : Fin cfg0.N) (hc1 : cond0_1 (grid0.coords t)) :
    (dat0 V c).leavesExact 1 t = owns (c : Thread nD τ) (ms0_1 t) fullShare (k0_pay5 (acc0 V c t.val t.isLt).1) := by
  unfold Dat.leavesExact; rw [liveAt0_1 t hc1, after0_1]
private theorem leaves_live0_2 (c : Dev nD) (t : Fin cfg0.N) (hc1 : cond0_1 (grid0.coords t)) :
    (dat0 V c).leavesExact 2 t = owns (c : Thread nD τ) (ms0_2 t) fullShare (acc0 V c t.val t.isLt).2 := by
  unfold Dat.leavesExact; rw [liveAt0_2 t hc1, after0_2]

/-- THE FIRST POINT. The scratch buffers come out of the class invariant at anything; the reset overwrites them, the
    block is folded in, and the result windows go back untouched. -/
private theorem body_first (c : Dev nD) (t : Fin cfg0.N) (h : t.val = 0) :
    pre0 V c t ⊢ wp frame (wpE (defs₀ (F := F)) Variants.none c none) Set.univ (bodyAt0 t) (fun _ => post0 V c t) := by
  have hN : cfg0.N = 32 := N_0
  have hc0 : cond0_0 (grid0.coords t) := (hcond0_0 t).mpr h
  have hc1 : ¬cond0_1 (grid0.coords t) := fun e => by have := (hcond0_1 t).mp e; omega
  unfold pre0 post0 bodyAt0
  simp only [before0_0]
  rw [show (dat0 V c).owesAt () t.succ = (dat0 V c).owesAt () t.castSucc from rfl,
    show (dat0 V c).Φ t.succ = PhiS0 V c (t.val + 1) t.isLt from rfl, PhiS0_next,
    leaves_in0, leaves_idle0_1 V c t hc1, leaves_idle0_2 V c t hc1, acc0_at_first V c t h,
    Phi_start0, PhiS0_first V c _ _ h, PhiA0_eq]
  iintro ⟨⟨⟨HS, HM, HO⟩, Hg⟩, Hw, ⟨%d0, H0⟩, ⟨%d1, H1⟩, ⟨%d2, H2⟩⟩
  iapply (run0_first c (grid0.coords t) (ms0_0 t) (hs0_0 t) (ms0_1 t) (hs0_1 t) (ms0_2 t) (hs0_2 t)
    scM0_0 (Memref.isWhole_whole _) scM0_1 (Memref.isWhole_whole _) hc0 hc1
    (iblk0 V c 0 t) ((dat0 V c).before 1 t d1) ((dat0 V c).before 2 t d2) Set.univ _)
  isplitl [H0]; · iexact H0
  isplitl [H1]; · iexact H1
  isplitl [H2]; · iexact H2
  isplitl [HS]; · iexact HS
  isplitl [HM]; · iexact HM
  iintro ⟨H0, H1, H2, HS, HM⟩
  isplitl [HS HM HO Hg]
  · isplitl [HS]; · iexact HS
    isplitl [HM]; · iexact HM
    isplitl [HO]; · iexact HO
    iexact Hg
  isplitl [Hw]; · iexact Hw
  isplitl [H0]; · iexact H0
  isplitl [H1]; · iexists _; iexact H1
  iexists _; iexact H2

/-- A MIDDLE POINT. The invariant names what the scratch buffers hold; the block is folded into that pair, and the
    result windows go back untouched. -/
private theorem body_mid (c : Dev nD) (t : Fin cfg0.N) (h0 : t.val ≠ 0) (h1 : t.val ≠ 31) :
    pre0 V c t ⊢ wp frame (wpE (defs₀ (F := F)) Variants.none c none) Set.univ (bodyAt0 t) (fun _ => post0 V c t) := by
  have hc0 : ¬cond0_0 (grid0.coords t) := fun e => h0 ((hcond0_0 t).mp e)
  have hc1 : ¬cond0_1 (grid0.coords t) := fun e => h1 ((hcond0_1 t).mp e)
  unfold pre0 post0 bodyAt0
  simp only [before0_0]
  rw [show (dat0 V c).owesAt () t.succ = (dat0 V c).owesAt () t.castSucc from rfl,
    show (dat0 V c).Φ t.succ = PhiS0 V c (t.val + 1) t.isLt from rfl, PhiS0_next,
    leaves_in0, leaves_idle0_1 V c t hc1, leaves_idle0_2 V c t hc1, acc0_at_later V c t h0,
    Phi_start0, PhiS0_later V c _ _ h0]
  iintro ⟨⟨HS, HM, HO, Hg⟩, Hw, ⟨%d0, H0⟩, ⟨%d1, H1⟩, ⟨%d2, H2⟩⟩
  iapply (run0_mid c (grid0.coords t) (ms0_0 t) (hs0_0 t) (ms0_1 t) (hs0_1 t) (ms0_2 t) (hs0_2 t)
    scM0_0 (Memref.isWhole_whole _) scM0_1 (Memref.isWhole_whole _) hc0 hc1
    (iblk0 V c 0 t) ((dat0 V c).before 1 t d1) ((dat0 V c).before 2 t d2)
    (acc0 V c (t.val - 1) (Nat.lt_of_le_of_lt (Nat.sub_le _ _) t.isLt)).1
    (acc0 V c (t.val - 1) (Nat.lt_of_le_of_lt (Nat.sub_le _ _) t.isLt)).2 Set.univ _)
  isplitl [H0]; · iexact H0
  isplitl [H1]; · iexact H1
  isplitl [H2]; · iexact H2
  isplitl [HS]; · iexact HS
  isplitl [HM]; · iexact HM
  iintro ⟨H0, H1, H2, HS, HM⟩
  isplitl [HS HM HO Hg]
  · isplitl [HS]; · iexact HS
    isplitl [HM]; · iexact HM
    isplitl [HO]; · iexact HO
    iexact Hg
  isplitl [Hw]; · iexact Hw
  isplitl [H0]; · iexact H0
  isplitl [H1]; · iexists _; iexact H1
  iexists _; iexact H2

/-- THE LAST POINT. As at a middle point, and then the two result windows, found at anything, receive the scaled
    running sum and the running maximum. -/
private theorem body_last (c : Dev nD) (t : Fin cfg0.N) (h : t.val = 31) :
    pre0 V c t ⊢ wp frame (wpE (defs₀ (F := F)) Variants.none c none) Set.univ (bodyAt0 t) (fun _ => post0 V c t) := by
  have h0 : t.val ≠ 0 := by omega
  have hc0 : ¬cond0_0 (grid0.coords t) := fun e => h0 ((hcond0_0 t).mp e)
  have hc1 : cond0_1 (grid0.coords t) := (hcond0_1 t).mpr h
  unfold pre0 post0 bodyAt0
  simp only [before0_0]
  rw [show (dat0 V c).owesAt () t.succ = (dat0 V c).owesAt () t.castSucc from rfl,
    show (dat0 V c).Φ t.succ = PhiS0 V c (t.val + 1) t.isLt from rfl, PhiS0_next,
    leaves_in0, leaves_live0_1 V c t hc1, leaves_live0_2 V c t hc1, acc0_at_later V c t h0,
    Phi_start0, PhiS0_later V c _ _ h0]
  iintro ⟨⟨HS, HM, HO, Hg⟩, Hw, ⟨%d0, H0⟩, ⟨%d1, H1⟩, ⟨%d2, H2⟩⟩
  iapply (run0_last c (grid0.coords t) (ms0_0 t) (hs0_0 t) (ms0_1 t) (hs0_1 t) (ms0_2 t) (hs0_2 t)
    scM0_0 (Memref.isWhole_whole _) scM0_1 (Memref.isWhole_whole _) hc0 hc1
    (iblk0 V c 0 t)
    (acc0 V c (t.val - 1) (Nat.lt_of_le_of_lt (Nat.sub_le _ _) t.isLt)).1
    (acc0 V c (t.val - 1) (Nat.lt_of_le_of_lt (Nat.sub_le _ _) t.isLt)).2 Set.univ _)
  isplitl [H0]; · iexact H0
  isplitl [H1]; · iexists _; iexact H1
  isplitl [H2]; · iexists _; iexact H2
  isplitl [HS]; · iexact HS
  isplitl [HM]; · iexact HM
  iintro ⟨H0, H1, H2, HS, HM⟩
  isplitl [HS HM HO Hg]
  · isplitl [HS]; · iexact HS
    isplitl [HM]; · iexact HM
    isplitl [HO]; · iexact HO
    iexact Hg
  isplitl [Hw]; · iexact Hw
  isplitl [H0]; · iexact H0
  isplitl [H1]; · iexact H1
  iexact H2

/-- The body obligation of the reduction at every point: the three windows conjoined one by one, then the case the
    point is in. -/
theorem body_obligation0 (c : Dev nD) : BodyObligation (dat0 (F := F) V c) (defs₀ (F := F)) Variants.none () Set.univ := fun t => by
  rw [bigSep_W0, bigSep_W0]
  by_cases h0 : t.val = 0
  · exact body_first V c t h0
  · by_cases h1 : t.val = 31
    · exact body_last V c t h1
    · exact body_mid V c t h0 h1

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_first V c 0 _ rfl]

/-- After the last point the invariant gives the class invariant back: the scratch contents are forgotten. -/
theorem hout0 (c : Dev nD) : (dat0 V c).Φ (Fin.last cfg0.N) ⊢ (Pipeline.ΦA spec0 c : sProp 𝕄) := by
  have hN : cfg0.N = 32 := N_0
  rw [show (dat0 V c).Φ (Fin.last cfg0.N) = PhiS0 V c (Fin.last cfg0.N).val (Nat.le_of_lt_succ (Fin.last cfg0.N).isLt) from rfl,
    PhiS0_later V c _ _ (by rw [Fin.val_last]; omega), PhiA0_eq]
  iintro ⟨Hs, Hm, Ho, Hg⟩
  isplitr [Hg]
  · isplitl [Hs]
    · iexists _; iexact Hs
    isplitl [Hm]
    · iexists _; iexact Hm
    iexact Ho
  iexact Hg

end

end Cert.Kernel.Frm

end
-- ==== Proof.KB.ScaleDat.lean ====
/-
  Region 1 (the scaling) as a pipeline: its proof data and its body obligation.

  At each of its 64 points the body loads the gate (8 x 64, the same block at every point) and one block of x
  (8 x 64 x 8 x 512), broadcasts the gate along the last two axes, multiplies, and stores the product over the whole
  output block. Nothing is carried between points.
-/
import proofs.«167075_j11914239279387_1_alg».proof.Proof.KB.Cond

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_g : Rect S8x64 := Rect.unit (s := S8x64) ![0, 0] S8x64.size inb_S8x64_S8x64_0_0
abbrev r1_x : Rect S8x64x8x512 := Rect.unit (s := S8x64x8x512) ![0, 0, 0, 0] S8x64x8x512.size inb_S8x64x8x512_S8x64x8x512_0_0_0_0

/-- The output block after the body, from the x block and the gate block: its one store as a piece. -/
def out1_2 (x0 : Vec F S8x64x8x512 .f32) (g : Vec F S8x64 .f32) : Vec F S8x64x8x512 .f32 :=
  View.canon [⟨r1_x, k1_pay1 (View.ld g r1_g) (View.ld x0 r1_x)⟩]

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## The input windows hold their blocks at every point -/

/-- The x window's staging buffer holds the x block of the point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The gate window's staging buffer holds the gate at every point: it is fetched at the first point only, and
    its block index never moves, so what the body left there at the point before is still the gate. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's one store covers the output block -/

/-- The one store's rectangle is the whole output block, so it covers every index of it. -/
theorem cover1_2 (p : Vec F S8x64x8x512 .f32) (y : S8x64x8x512.Idx) :
    ∃ pc ∈ ([⟨r1_x, p⟩] : List (View.Piece (Elt F) S8x64x8x512 .f32)), y ∈ pc.1.set :=
  View.cover_of_tiled [⟨r1_x, p⟩] S8x64x8x512.size (by rfl) y

/-! ## The body's triple -/

set_option maxHeartbeats 1000000 in
/-- The body on whole staging memrefs: with the x buffer reading x, the gate buffer reading g and the output buffer at
    anything, it runs to a continuation that gets the two inputs back as they were and the output buffer reading
    the product block. The body's read of the output buffer before its store has no effect: its value is not used,
    and the store that follows overwrites every index. -/
theorem sound_kernel1 (c : Dev nD) (E : Set ℕ) (i : grid1.Coords)
    (ax : Memref sig .tc .vmem S8x64x8x512 .f32) (hx : ax.IsWhole)
    (ag : Memref sig .tc .vmem S8x64 .f32) (hg : ag.IsWhole)
    (ao : Memref sig .tc .vmem S8x64x8x512 .f32) (ho : ao.IsWhole)
    (x : Vec F S8x64x8x512 .f32) (g : Vec F S8x64 .f32) (K : PUnit → sProp 𝕄) :
    iprop(owns (c : Thread nD τ) ax fullShare x ∗ owns (c : Thread nD τ) ag fullShare g
        ∗ (∃ d, owns (c : Thread nD τ) ao fullShare d)
        ∗ (iprop(owns (c : Thread nD τ) ax fullShare x ∗ owns (c : Thread nD τ) ag fullShare g
            ∗ owns (c : Thread nD τ) ao fullShare (out1_2 x g)) -∗ K ⟨⟩))
      ⊢ wp frame (wpE (defs₀ (F := F)) Variants.none c none) E (cc1__scale_kernel i ax hx ag hg ao ho) K := by
  simp only [cc1__scale_kernel_eq_skeleton]; unfold cc1__scale_kernel_skel
  unfold owns
  iintro ⟨⟨%fx, %hfx, Hx⟩, ⟨%fg, %hfg, Hg⟩, ⟨%d, %fo, -, Ho⟩, Hk⟩
  subst hfx; subst hfg
  sl_exec
  sl_step
  iapply Hk
  isplitl [Hx]
  · iexists fx; isplitr
    · ipureintro; rfl
    · iexact Hx
  isplitl [Hg]
  · iexists fg; isplitr
    · ipureintro; rfl
    · iexact Hg
  iexists _; isplitr
  swap; · iexact Ho
  ipureintro
  exact View.read_writes_eq_canon _ _ _ (cover1_2 _)

/-! ## The body obligation at a point -/

/-- What the body is handed at point t: the invariant, the core's dues, and the three current staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and dues, the inputs as found, the output block at the product. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at point t: both inputs' buffers hold their blocks, so the body's triple applies with x the x block
    and g the gate; the invariant and the dues are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [after1_0, after1_1, after1_2,
    show (dat1 V c).Φ t.succ = (dat1 V c).Φ t.castSucc from rfl,
    show (dat1 V c).owesAt () t.succ = (dat1 V c).owesAt () t.castSucc from rfl]
  iintro ⟨HΦ, Hd, ⟨%d0, Hx⟩, ⟨%d1, Hg⟩, ⟨%d2, Ho⟩⟩
  iapply (sound_kernel1 c Set.univ _ _ _ _ _ _ _ (iblk1 V c 0 t) (iblk1 V c 1 t) _)
  isplitl [Hx]; · iexact Hx
  isplitl [Hg]; · iexact Hg
  isplitl [Ho]; · iexists _; iexact Ho
  iintro ⟨Hx, Hg, Ho⟩
  isplitl [HΦ]; · iexact HΦ
  isplitl [Hd]; · iexact Hd
  isplitl [Hx]; · iexact Hx
  isplitl [Hg]; · iexact Hg
  iexact Ho

/-- The body obligation of the scaling at every point. -/
theorem body_obligation1 (c : Dev nD) : BodyObligation (dat1 (F := F) V c) (defs₀ (F := F)) Variants.none () Set.univ := fun t => by
  rw [bigSep_W1, bigSep_W1]
  exact sound_body1 V c t

end

end Cert.Kernel.Frm

end
-- ==== Proof.KB.Whole.lean ====
/-
  The whole run of the program: the reduction region, three stretches of host operations (the gate's small
  matrix products, leaky-ReLU and sigmoid), the scaling region.

  The contents of the TensorCore's unscoped buffers at each boundary between two items are defined one after the
  other from the launch memory: a region replaces its windows' arrays by what its write-backs leave, a stretch of host
  operations is folded over the contents it finds. The run theorem says that every weakly fair execution from zero
  counters terminates with every unscoped buffer at the last of these contents; the frame (the three arguments end as
  launched) and the result array's contents are read off it.
-/
import proofs.«167075_j11914239279387_1_alg».proof.Proof.KB.ReduceDat
import proofs.«167075_j11914239279387_1_alg».proof.Proof.KB.ScaleDat
import proofs.«167075_j11914239279387_1_alg».proof.Proof.Gen.Kernel.Regions
import Idealize.ShloMosaic.Lib.Pipeline.RegionsLoop
import Idealize.ShloMosaic.Lib.Pipeline.FrameSuffix

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what the reduction's proof data take). -/
abbrev U0 : (c : Dev nD) → (b : Ref sig .tc) → Buf (Elt F) ((c : Thread nD τ).loc b) := fun c b => W0 m ρ c b
/-- After the reduction region: its arrays at what the pipeline leaves, every other buffer as entered. -/
def W1 (c : Dev nD) : Valuation τ sig (Elt F) :=
  Pipeline.withArrays spec0 c (W0 m ρ c) fun w => (dat0 (U0 m ρ) c).arrAt w cfg0.N
/-- After the first stretch of host operations, -/
abbrev W2 : Dev nD → Valuation τ sig (Elt F) := fun c => StableHlo.after hostOps1 (W1 m ρ c)
/-- the second (the select), -/
abbrev W3 : Dev nD → Valuation τ sig (Elt F) := fun c => StableHlo.after hostOps1_1 (W2 m ρ c)
/-- and the third: the scaling region's entry. -/
abbrev W4 : Dev nD → Valuation τ sig (Elt F) := fun c => StableHlo.after hostOps1_2 (W3 m ρ c)
/-- The same read at the TensorCore's references (what the scaling's proof data take). -/
abbrev U4 : (c : Dev nD) → (b : Ref sig .tc) → Buf (Elt F) ((c : Thread nD τ).loc b) := fun c b => W4 m ρ c b
/-- After the scaling region. -/
def W5 (c : Dev nD) : Valuation τ sig (Elt F) :=
  Pipeline.withArrays spec1 c (W4 m ρ c) fun w => (dat1 (U4 m ρ) c).arrAt w cfg1.N

/-! ## What the boundaries' contents are at the buffers the claims read -/

/-- After the reduction region each of its arrays holds what the pipeline leaves there. -/
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_main_v0_0 (c : Dev nD) : W1 m ρ c (Proc.devRef .tc main_v0_0) = (dat0 (U0 m ρ) c).arrAt 1 cfg0.N :=
  W1_arr m ρ c 1
theorem W1_main_v0_1 (c : Dev nD) : W1 m ρ c (Proc.devRef .tc main_v0_1) = (dat0 (U0 m ρ) c).arrAt 2 cfg0.N :=
  W1_arr m ρ c 2
/-- A buffer that is no array of the reduction is as launched after it. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The reduction only reads its first window's array: it leaves it as it found it. -/
theorem W1_main_arg0 (c : Dev nD) : W1 m ρ c (Proc.devRef .tc main_arg0) = W0 m ρ c (Proc.devRef .tc main_arg0) :=
  (W1_arr m ρ c 0).trans (((dat0 (U0 m ρ) c).arrAt_in 0 rfl _).trans (A_eq0 (U0 m ρ) c 0))

/-- A buffer none of the three stretches of host operations writes reaches the scaling region as the reduction left it. -/
theorem W4_of_not_written (c : Dev nD) (r : Ref sig .tc) (h1 : r ∉ hostOps1_W) (h2 : r ∉ hostOps1_1_W) (h3 : r ∉ hostOps1_2_W) :
    W4 m ρ c (Proc.devRef .tc r) = W1 m ρ c (Proc.devRef .tc r) :=
  calc W4 m ρ c (Proc.devRef .tc r)
    _ = W3 m ρ c (Proc.devRef .tc r) := StableHlo.after_of_writes_sub hostOps1_2 _ hostOps1_2_writes h3
    _ = W2 m ρ c (Proc.devRef .tc r) := StableHlo.after_of_writes_sub hostOps1_1 _ hostOps1_1_writes h2
    _ = W1 m ρ c (Proc.devRef .tc r) := StableHlo.after_of_writes_sub hostOps1 _ hostOps1_writes h1

theorem W4_main_arg0 (c : Dev nD) : W4 m ρ c (Proc.devRef .tc main_arg0) = m ((c : Thread nD τ).loc main_arg0) :=
  (W4_of_not_written m ρ c main_arg0 (by decide) (by decide) (by decide)).trans (W1_main_arg0 m ρ c)
theorem W4_main_arg1 (c : Dev nD) : W4 m ρ c (Proc.devRef .tc main_arg1) = m ((c : Thread nD τ).loc main_arg1) :=
  (W4_of_not_written m ρ c main_arg1 (by decide) (by decide) (by decide)).trans (W1_of_ne m ρ c main_arg1 (by decide))
theorem W4_main_arg2 (c : Dev nD) : W4 m ρ c (Proc.devRef .tc main_arg2) = m ((c : Thread nD τ).loc main_arg2) :=
  (W4_of_not_written m ρ c main_arg2 (by decide) (by decide) (by decide)).trans (W1_of_ne m ρ c main_arg2 (by decide))

/-- After the scaling region each of its arrays holds what the pipeline leaves there, -/
theorem W5_arr (c : Dev nD) (w : Fin cfg1.W) :
    W5 m ρ c (Proc.devRef .tc (Pipeline.arrRef spec1 w)) = (dat1 (U4 m ρ) c).arrAt w cfg1.N := by
  unfold W5; exact Pipeline.withArrays_arr spec1 launch1.win.arr_inj c _ _ w
/-- and every other buffer what it held when the region was entered. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
theorem W5_main_arg0 (c : Dev nD) : W5 m ρ c (Proc.devRef .tc main_arg0) = m ((c : Thread nD τ).loc main_arg0) :=
  ((W5_arr m ρ c 0).trans (((dat1 (U4 m ρ) c).arrAt_in 0 rfl _).trans (A_eq1 (U4 m ρ) c 0))).trans (W4_main_arg0 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W5_main_arg2 (c : Dev nD) : W5 m ρ c (Proc.devRef .tc main_arg2) = m ((c : Thread nD τ).loc main_arg2) :=
  (W5_of_ne m ρ c main_arg2 (by decide)).trans (W4_main_arg2 m ρ c)
theorem W5_main_v21 (c : Dev nD) : W5 m ρ c (Proc.devRef .tc main_v21) = (dat1 (U4 m ρ) c).arrAt 2 cfg1.N :=
  W5_arr m ρ c 2

/-! ## The proof data and what a core holds between two items -/

/-- The proof data of the two pipelines, each at the contents its region is entered from: the reduction at the launch
    memory, the scaling at what the three stretches of host operations leave. Written as a match on the literal index
    so that the data of pipeline 0 or 1 reduce to the region's own. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U4 m ρ) c

/-- No body has variants; no core owes another core anything, so no pair is assigned a level. -/
abbrev noVar : Variants := Variants.none
abbrev noPairs : GSem nD τ sig → Finset Unit := fun _ => ∅
abbrev noLvl : GSem nD τ sig → Unit → ℕ := fun _ _ => 0

/-- Core c holding every unscoped buffer whole, at the valuation V. -/
abbrev holds (c : Dev nD) (V : Valuation τ sig (Elt F)) : sProp 𝕄 :=
  StableHlo.held (c : Thread nD τ) (Pipeline.ucRefs τ sig) V
/-- The core's generator register at some state. -/
abbrev someGen (c : Dev nD) : sProp 𝕄 := iprop(∃ r, prngReg c r)
/-- The core owing nothing, whatever pairs it has recorded. -/
abbrev owesNothing (c : Dev nD) : sProp 𝕄 := iprop(∃ W, owes (c : Thread nD τ) (0 : CellTallies nD τ sig Unit) W)
/-- What a core holds beside its buffers between two items of the program. -/
abbrev side (c : Dev nD) : sProp 𝕄 := iprop(someGen (F := F) c ∗ owesNothing (F := F) c)

/-- A stretch of host operations as an item: run over the unscoped buffers from the valuation W c to the stretch
    folded over it, the side state untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (side (F := F))

/-- An unscoped reference of the TensorCore is among the buffers a core holds between two items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two regions as items

  A region takes its windows' arrays out of the unscoped buffers at entry and puts them back at exit, at the valuation
  with those arrays replaced by what the pipeline leaves; the generator register goes into the region's invariant and
  comes back; the core owes nothing before and after; the kernels have no semaphore of their own. -/

/-- What the reduction leaves in its arrays is what the next valuation holds there, -/
theorem exitArr0 (c : Dev nD) (w : Fin cfg0.W) :
    (dat0 (U0 m ρ) c).arrAt w cfg0.N = W1 m ρ c (Proc.devRef .tc (Pipeline.arrRef spec0 w)) := (W1_arr m ρ c w).symm
/-- and off its arrays that valuation is the launch memory. -/
theorem exitRest0 (c : Dev nD) (b : Ref sig .tc) (hb : b ∉ Finset.univ.image (Pipeline.arrRef spec0)) :
    W1 m ρ c (Proc.devRef .tc b) = W0 m ρ c (Proc.devRef .tc b) :=
  W1_of_ne m ρ c b fun w e => hb (Finset.mem_image.mpr ⟨w, Finset.mem_univ _, e⟩)
/-- The same two facts for the scaling region. -/
theorem exitArr1 (c : Dev nD) (w : Fin cfg1.W) :
    (dat1 (U4 m ρ) c).arrAt w cfg1.N = W5 m ρ c (Proc.devRef .tc (Pipeline.arrRef spec1 w)) := (W5_arr m ρ c w).symm
theorem exitRest1 (c : Dev nD) (b : Ref sig .tc) (hb : b ∉ Finset.univ.image (Pipeline.arrRef spec1)) :
    W5 m ρ c (Proc.devRef .tc b) = W4 m ρ c (Proc.devRef .tc b) :=
  W5_of_ne m ρ c b fun w e => hb (Finset.mem_image.mpr ⟨w, Finset.mem_univ _, e⟩)

-- the library's lemmas are stated over the pinned configuration of a pipeline index: unifying them with the printed
-- configuration unfolds plain definitions inside a metavariable's type
set_option backward.isDefEq.respectTransparency.types false in
/-- The reduction region: entered from the launch memory, left at W1. Its invariant is the running pair in the two
    scratch buffers; it starts from and ends in the class invariant, which is where the generator register rides. -/
def reg0 : Pipeline.RegionSeg (pcfgs (F := F)) adm (pdats m ρ) () defs₀ noVar noPairs noLvl 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ noPairs noLvl 0 fun _ _ => rfl
  pre c := iprop(holds c (W0 m ρ c) ∗ side c)
  post c := iprop(holds c (W1 m ρ c) ∗ side c)
  X c := someGen c
  Y c := someGen c
  Z c := Pipeline.unscopedRest (Ix := Unit) (Name := ℕ) (U := UR sig nD τ) (Lvl := ℕ) spec0 c (U0 m ρ c)
  hentry c := by
    have htake := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at htake
    rw [Pipeline.ownSems0_none]
    iintro ⟨⟨Hbufs, Hgen, Howe⟩, -, -⟩
    ihave Hsp := htake $$ Hbufs
    icases Hsp with ⟨Harr, Hoff⟩
    icases Howe with ⟨%Wr, Howe⟩
    imodintro
    isplitl [Harr]; · iexact Harr
    isplitr
    · unfold Pipeline.prefHeld
      rw [show (Finset.univ : Finset (Fin 0)) = ∅ from rfl, BI.bigSep_empty]; iempintro
    isplitl [Howe]
    · unfold Pipeline.Dat.owesAt Pipeline.owesWithin
      iexists Wr
      isplitr; · ipureintro; exact fun _ _ => Or.inl trivial
      iexact Howe
    isplitl [Hgen]; · iexact Hgen
    iexact Hoff
  hin c := by
    refine BIBase.Entails.trans ?_ (hin0 (U0 m ρ) c)
    unfold Pipeline.ΦA
    iintro ⟨Hgen, -, Hsc⟩
    isplitl [Hsc]; · iexact Hsc
    iexact Hgen
  hout c := by
    rw [Pipeline.ownSems0_none]
    refine BIBase.Entails.trans (hout0 (U0 m ρ) c) ?_
    unfold Pipeline.ΦA
    iintro ⟨Hsc, Hgen⟩
    isplitl [Hgen]; · iexact Hgen
    isplitr; · iempintro
    iexact Hsc
  hexit c := by
    have hput := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (fun b => W1 m ρ c b) ((pdats m ρ 0 c).arrAt · cfg0.N) (exitArr0 m ρ c) (exitRest0 m ρ c)
    rw [Pipeline.unscopedBufs_held] at hput
    iintro ⟨Harr, Howe, Hgen, Hoff⟩
    unfold Pipeline.Dat.owesAt Pipeline.owesWithin
    icases Howe with ⟨%Wr, -, Howe⟩
    imodintro
    isplitl [Harr Hoff]
    · iapply hput; isplitl [Harr]; · iexact Harr
      iexact Hoff
    isplitl [Hgen]; · iexact Hgen
    iexists Wr; iexact Howe

-- as for the reduction region
set_option backward.isDefEq.respectTransparency.types false in
/-- The scaling region: entered from W4, left at W5. Its invariant is the class invariant throughout. -/
def reg1 : Pipeline.RegionSeg (pcfgs (F := F)) adm (pdats m ρ) () defs₀ noVar noPairs noLvl 1 where
  win := launch1.win.to₀
  block_pos := launch1.block_pos
  stage_whole := launch1.stage_whole
  K := PEmpty
  osem k := k.elim
  ho := Pipeline.OwnSemFacts.none _
  hbody c := (body_obligation1 (U4 m ρ) c).loose
  hwaits := Pipeline.hwaits_of_owed_zero _ _ _ _ noPairs noLvl 1 fun _ _ => rfl
  pre c := iprop(holds c (W4 m ρ c) ∗ side c)
  post c := iprop(holds c (W5 m ρ c) ∗ side c)
  X c := someGen c
  Y c := someGen c
  Z c := Pipeline.unscopedRest (Ix := Unit) (Name := ℕ) (U := UR sig nD τ) (Lvl := ℕ) spec1 c (U4 m ρ c)
  hentry c := by
    have htake := Pipeline.arrays_of_unscopedBufs (p := 1) (pcfgs (F := F)) adm (pdats m ρ) launch1.win launch1.arr_whole c
      ((pdats m ρ 1 c).share_full fun _ => rfl) (U4 m ρ c) fun _ => rfl
    rw [Pipeline.unscopedBufs_held] at htake
    rw [Pipeline.ownSems0_none]
    iintro ⟨⟨Hbufs, Hgen, Howe⟩, -, -⟩
    ihave Hsp := htake $$ Hbufs
    icases Hsp with ⟨Harr, Hoff⟩
    icases Howe with ⟨%Wr, Howe⟩
    imodintro
    isplitl [Harr]; · iexact Harr
    isplitr
    · unfold Pipeline.prefHeld
      rw [show (Finset.univ : Finset (Fin 0)) = ∅ from rfl, BI.bigSep_empty]; iempintro
    isplitl [Howe]
    · unfold Pipeline.Dat.owesAt Pipeline.owesWithin
      iexists Wr
      isplitr; · ipureintro; exact fun _ _ => Or.inl trivial
      iexact Howe
    isplitl [Hgen]; · iexact Hgen
    iexact Hoff
  hin c := by
    rw [show (pdats m ρ 1 c).Φ 0 = Pipeline.ΦA spec1 c from rfl]
    unfold Pipeline.ΦA
    iintro ⟨Hgen, -, Hsc⟩
    isplitl [Hsc]; · iexact Hsc
    iexact Hgen
  hout c := by
    rw [Pipeline.ownSems0_none, show (pdats m ρ 1 c).Φ (Fin.last _) = Pipeline.ΦA spec1 c from rfl]
    unfold Pipeline.ΦA
    iintro ⟨Hsc, Hgen⟩
    isplitl [Hgen]; · iexact Hgen
    isplitr; · iempintro
    iexact Hsc
  hexit c := by
    have hput := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (fun b => W5 m ρ c b) ((pdats m ρ 1 c).arrAt · cfg1.N) (exitArr1 m ρ c) (exitRest1 m ρ c)
    rw [Pipeline.unscopedBufs_held] at hput
    iintro ⟨Harr, Howe, Hgen, Hoff⟩
    unfold Pipeline.Dat.owesAt Pipeline.owesWithin
    icases Howe with ⟨%Wr, -, Howe⟩
    imodintro
    isplitl [Harr Hoff]
    · iapply hput; isplitl [Harr]; · iexact Harr
      iexact Hoff
    isplitl [Hgen]; · iexact Hgen
    iexists Wr; iexact Howe

/-! ## The program as its five items -/

/-- The reduction, the three stretches of host operations each from the valuation the item before it leaves, the
    scaling. -/
abbrev items : List (Pipeline.Seg (pcfgs (F := F)) adm (pdats m ρ) () defs₀ noVar noPairs noLvl) :=
  [ .region (reg0 m ρ),
    .host (stretch hostOps1 hostOps1_sub hostOps1_fresh (W1 m ρ)),
    .host (stretch hostOps1_1 hostOps1_1_sub hostOps1_1_fresh (W2 m ρ)),
    .host (stretch hostOps1_2 hostOps1_2_sub hostOps1_2_fresh (W3 m ρ)),
    .region (reg1 m ρ) ]

/-- The program is the run of its items: both are the same chain of five fragments. -/
theorem main_items (c : Dev nD) : main (F := F) c = Pipeline.Seg.run (items m ρ) :=
  (main_chain c).trans (by chain_rfl)

/-! ## The run -/

-- the launch theorem's implicit arguments are found by unifying its conclusion with the statement
set_option backward.isDefEq.respectTransparency.types false in
/-- From any memory with zero counters, every weakly fair execution of the program on the TensorCores terminates,
    nothing faulting, with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ noVar noPairs noLvl m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(holds c (W0 m ρ c) ∗ side c))
    (Tₙ := fun c => iprop(holds c (W5 m ρ c) ∗ someGen c))
    (hch := ⟨fun _ => .rfl, fun _ => .rfl, fun _ => .rfl, fun _ => .rfl, fun _ => .rfl, fun c => by
      show iprop(holds c (W5 m ρ c) ∗ side c) ⊢ iprop((holds c (W5 m ρ c) ∗ someGen c) ∗ owesNothing c)
      iintro ⟨Hbufs, Hgen, Howe⟩
      isplitl [Hbufs Hgen]
      · isplitl [Hbufs]; · iexact Hbufs
        iexact Hgen
      iexact Howe⟩)
    (hinit := by
      refine Pipeline.initEach noPairs noLvl fun c => ?_
      rw [show unscopedBufs c (fun b => m ((c : Thread nD τ).loc b)) = holds c (W0 m ρ c)
        from Pipeline.unscopedBufs_held c (W0 m ρ c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = W5 m ρ c b)
    (hfin := fun c s' => by
      iintro ⟨⟨Hbufs, -⟩, Hst⟩
      unfold holds StableHlo.held
      imodintro
      iapply (pointsTo_read_all (Pipeline.ucRefs τ sig) (fun b => (((c : Thread nD τ)).1, b)) (W5 m ρ c) s')
      isplitl [Hbufs]; · iexact Hbufs
      iexact Hst)
    (hQ := fun s h c => h c)

/-- The frame: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- The run with the result array named: what the scaling region's write-backs leave. -/
theorem run_result : θ_run defs (onTc (τ := τ) (main (F := F))) ⟨m, fun _ => 0, ρ⟩ (fun r => ∀ c : Dev nD,
      r.2.mem ((c.tc : Thread nD τ).loc main_v21) = (dat1 (U4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v21 (by decide))).trans (W5_main_v21 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Frm

end
-- ==== Proof.KI.Cond.lean ====
/-
  The reduction kernel runs on a grid of 32 points along H. Its two branches test the grid coordinate: the first
  (reset of the two running accumulators) is taken exactly at point 0, the second (the two results stored) exactly
  at point 31. This module states both tests in closed form over the grid, says at which points the two result
  windows are idle and not written back (every point but the last), and names the staging and scratch memrefs the
  body is called with.
-/
import proofs.«167075_j11914239279387_1_alg».proof.Proof.Gen.KernelIdeal.Launch
import proofs.«167075_j11914239279387_1_alg».proof.Proof.Gen.KernelIdeal.Skeleton
import proofs.«167075_j11914239279387_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the reduction body -/

/-- The reset branch's test, from the grid coordinate. -/
abbrev cond0_0 (i : grid0.Coords) : Prop :=
  (Scalar.cmpi .ne (Scalar.extui (Scalar.cmpi .eq (BitVec.ofNat 32 (i 0).val) 0#32)) 0#32) = 1#1
/-- It holds exactly at the first point. -/
theorem hcond0_0 : ∀ t : Fin cfg0.N, cond0_0 (grid0.coords t) ↔ t.val = 0 :=
  (by decide +kernel : ∀ t : Fin grid0.N, cond0_0 (grid0.coords t) ↔ t.val = 0)

/-- The result branch's test, from the grid coordinate. -/
abbrev cond0_1 (i : grid0.Coords) : Prop := k0_cond2 i = 1#1
/-- It holds exactly at the last point. -/
theorem hcond0_1 : ∀ t : Fin cfg0.N, cond0_1 (grid0.coords t) ↔ t.val = 31 :=
  (by decide +kernel : ∀ t : Fin grid0.N, cond0_1 (grid0.coords t) ↔ t.val = 31)

/-! ## Where the result windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the bodies are called with -/

abbrev ms0_0 (t : Fin cfg0.N) : Memref sig .tc .vmem S8x64x16x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x64 .f32 := win0_2.stage (cfg0.slots t 2)
abbrev hs0_2 (t : Fin cfg0.N) : (ms0_2 t).IsWhole := hstage0_2 ((cfg0.slots t 2).cast nbuf0_2)
/-- The two scratch accumulators: whole scoped buffers of the kernel's own. -/
abbrev scM0_0 : Memref sig .tc .vmem S8x64 .f32 := Memref.whole cc0_scratch0
abbrev scM0_1 : Memref sig .tc .vmem S8x64 .f32 := Memref.whole cc0_scratch1

end Cert.KernelIdeal.Frm

end
-- ==== Proof.KI.ReduceRun.lean ====
/-
  The reduction body, run once per control case on whole staging memrefs.

  At every point the body loads the input block x (8 x 64 x 16 x 512), forms its sum and its maximum over the last two
  axes (one axis at a time), adds the sum to the running sum kept in the first scratch and takes the maximum with the
  running maximum kept in the second scratch. At the first point both scratch buffers are first reset (zeros, and
  minus infinity); at the last point the running sum times 2^-18 and the running maximum are stored into the two
  result windows. The three lemmas below say what each buffer holds after the body in each of the three cases, as the
  skeleton's payloads of what the buffers held before.
-/
import proofs.«167075_j11914239279387_1_alg».proof.Proof.KI.Cond
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle at zero offsets of the buffer's own sizes, unmasked:
such a load reads the contents, and after such a store the buffer reads the stored value whatever was written
before. -/

private theorem hz2 : (![0, 0] : Fin 2 → ℕ) = fun _ => 0 := funext fun a => by fin_cases a <;> rfl
private theorem hz4 : (![0, 0, 0, 0] : Fin 4 → ℕ) = fun _ => 0 := funext fun a => by fin_cases a <;> rfl

/-- A whole-buffer load of a whole 8 x 64 memref holding `X` reads `X`. -/
private theorem load2 (M : Memref sig .tc .vmem S8x64 .f32) (h : M.IsWhole) (X : Vec F S8x64 .f32) :
    View.readAt (Elt F) M.view (Rect.unit (s := S8x64) ![0, 0] S8x64.size inb_S8x64_S8x64_0_0).toLoadRect (h.unread X) = X := by
  rw [View.readAt_eq_ld, h.read_unread]
  exact View.ld_unit_zero hz2 _ X

/-- A whole-buffer load of the whole input block's memref holding `X` reads `X`. -/
private theorem load4 (M : Memref sig .tc .vmem S8x64x16x512 .f32) (h : M.IsWhole) (X : Vec F S8x64x16x512 .f32) :
    View.readAt (Elt F) M.view (Rect.unit (s := S8x64x16x512) ![0, 0, 0, 0] S8x64x16x512.size inb_S8x64x16x512_S8x64x16x512_0_0_0_0).toLoadRect (h.unread X) = X := by
  rw [View.readAt_eq_ld, h.read_unread]
  exact View.ld_unit_zero hz4 _ X

/-- After a whole-buffer store of `w` (the last of the stores `⟨_, w⟩ :: L`) the memref reads `w`. -/
private theorem stored2 (M : Memref sig .tc .vmem S8x64 .f32) (f : M.view.ty.Contents (Elt F)) (w : Vec F S8x64 .f32)
    (L : List (View.Piece (Elt F) S8x64 .f32)) :
    M.view.read (Elt F) (M.view.writes (Elt F) f (⟨Rect.unit (s := S8x64) ![0, 0] S8x64.size inb_S8x64_S8x64_0_0, w⟩ :: L)) = w := by
  rw [View.read_writes_eq_canon _ _ _ (fun y => ⟨⟨Rect.unit (s := S8x64) ![0, 0] S8x64.size inb_S8x64_S8x64_0_0, w⟩, List.mem_cons_self,
    View.mem_set_unit_zero hz2 inb_S8x64_S8x64_0_0 y⟩)]
  exact View.canon_cons_unit_zero hz2 inb_S8x64_S8x64_0_0 w L

set_option maxHeartbeats 1000000 in
/-- FIRST POINT (reset taken, results not stored): the scratch buffers, found at anything, end at one block's sum
    over zeros and one block's maximum over minus infinity; the result windows are handed back untouched. -/
theorem run0_first (c : Dev nD) (i : grid0.Coords) (arg1 : Memref sig .tc .vmem S8x64x16x512 .f32) (harg1 : arg1.IsWhole)
    (arg2 : Memref sig .tc .vmem S8x64 .f32) (harg2 : arg2.IsWhole) (arg3 : Memref sig .tc .vmem S8x64 .f32) (harg3 : arg3.IsWhole)
    (arg4 : Memref sig .tc .vmem S8x64 .f32) (harg4 : arg4.IsWhole) (arg5 : Memref sig .tc .vmem S8x64 .f32) (harg5 : arg5.IsWhole)
    (hc0 : cond0_0 i) (hc1 : ¬cond0_1 i)
    (x0 : Vec F S8x64x16x512 .f32) (xi1 xi2 : Vec F S8x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay3 x0 (k0_pay1 (F := F))) ∗ owns (c : Thread nD τ) arg5 fullShare (k0_pay4 x0 (k0_pay2 (F := F)))) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    rotate_left
    · iexact H3
    · -- the update is the last store; the running sum it read is what the reset had just stored
      ipureintro
      refine (stored2 arg4 _ _ _).trans ?_
      sl_unfold_words
      rw [load4 arg1 harg1 x0, View.readCov_unit_zero (S := S8x64) _ hz2]
  iexists _; isplitr
  rotate_left
  · iexact H4
  · ipureintro
    refine (stored2 arg5 _ _ _).trans ?_
    sl_unfold_words
    rw [load4 arg1 harg1 x0, View.readCov_unit_zero (S := S8x64) _ hz2]

set_option maxHeartbeats 1000000 in
/-- A MIDDLE POINT (neither branch taken): the running sum s and the running maximum mx are updated by the block. -/
theorem run0_mid (c : Dev nD) (i : grid0.Coords) (arg1 : Memref sig .tc .vmem S8x64x16x512 .f32) (harg1 : arg1.IsWhole)
    (arg2 : Memref sig .tc .vmem S8x64 .f32) (harg2 : arg2.IsWhole) (arg3 : Memref sig .tc .vmem S8x64 .f32) (harg3 : arg3.IsWhole)
    (arg4 : Memref sig .tc .vmem S8x64 .f32) (harg4 : arg4.IsWhole) (arg5 : Memref sig .tc .vmem S8x64 .f32) (harg5 : arg5.IsWhole)
    (hc0 : ¬cond0_0 i) (hc1 : ¬cond0_1 i)
    (x0 : Vec F S8x64x16x512 .f32) (xi1 xi2 s mx : Vec F S8x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare s ∗ owns (c : Thread nD τ) arg5 fullShare mx
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay3 x0 s) ∗ owns (c : Thread nD τ) arg5 fullShare (k0_pay4 x0 mx)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    rotate_left
    · iexact H3
    · ipureintro
      refine (stored2 arg4 _ _ _).trans ?_
      rw [load4 arg1 harg1 x0, load2 arg4 harg4 s]
  iexists _; isplitr
  rotate_left
  · iexact H4
  · ipureintro
    refine (stored2 arg5 _ _ _).trans ?_
    rw [load4 arg1 harg1 x0, load2 arg5 harg5 mx]

set_option maxHeartbeats 1000000 in
/-- THE LAST POINT (results stored): after the update the first result window holds the scaled running sum, the
    second the running maximum. -/
theorem run0_last (c : Dev nD) (i : grid0.Coords) (arg1 : Memref sig .tc .vmem S8x64x16x512 .f32) (harg1 : arg1.IsWhole)
    (arg2 : Memref sig .tc .vmem S8x64 .f32) (harg2 : arg2.IsWhole) (arg3 : Memref sig .tc .vmem S8x64 .f32) (harg3 : arg3.IsWhole)
    (arg4 : Memref sig .tc .vmem S8x64 .f32) (harg4 : arg4.IsWhole) (arg5 : Memref sig .tc .vmem S8x64 .f32) (harg5 : arg5.IsWhole)
    (hc0 : ¬cond0_0 i) (hc1 : cond0_1 i)
    (x0 : Vec F S8x64x16x512 .f32) (s mx : Vec F S8x64 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s ∗ owns (c : Thread nD τ) arg5 fullShare mx
        ∗ (iprop(owns (c : Thread nD τ) arg1 fullShare x0 ∗ owns (c : Thread nD τ) arg2 fullShare (k0_pay5 (k0_pay3 x0 s)) ∗ owns (c : Thread nD τ) arg3 fullShare (k0_pay4 x0 mx)
            ∗ owns (c : Thread nD τ) arg4 fullShare (k0_pay3 x0 s) ∗ owns (c : Thread nD τ) arg5 fullShare (k0_pay4 x0 mx)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  obtain rfl := harg1.eq_unread hf0; obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr
    rotate_left
    · iexact H1
    · -- the stored value is the scaling of the running sum read back after its update
      ipureintro
      sl_unfold_words
      refine (stored2 arg2 _ _ _).trans ?_
      rw [View.readCov_unit_zero (S := S8x64) _ hz2, load4 arg1 harg1 x0, load2 arg4 harg4 s]
  isplitl [H2]
  · iexists _; isplitr
    rotate_left
    · iexact H2
    · -- the stored value is the running maximum read back after its update
      ipureintro
      sl_unfold_words
      refine (stored2 arg3 _ _ _).trans ?_
      rw [View.readCov_unit_zero (S := S8x64) _ hz2, load4 arg1 harg1 x0, load2 arg5 harg5 mx]
  isplitl [H3]
  · iexists _; isplitr
    rotate_left
    · iexact H3
    · ipureintro
      sl_unfold_words
      refine (stored2 arg4 _ _ _).trans ?_
      rw [load4 arg1 harg1 x0, load2 arg4 harg4 s]
  iexists _; isplitr
  rotate_left
  · iexact H4
  · ipureintro
    sl_unfold_words
    refine (stored2 arg5 _ _ _).trans ?_
    rw [load4 arg1 harg1 x0, load2 arg5 harg5 mx]

end Cert.KernelIdeal.Frm

end
-- ==== Proof.KI.ReduceDat.lean ====
/-
  Region 0 (the reduction) as a pipeline: its proof data and its body obligation.

  The running sum and the running maximum after point n are defined by recursion on n from the input blocks
  (`acc0`): at point 0 one block's sum over zeros and one block's maximum over minus infinity, at point n + 1 the
  update of what point n left. Between points the two scratch buffers hold exactly that pair (the invariant
  `PhiS0`; before the first point they hold anything). The two result windows are idle at every point but the
  last, where they receive the scaled running sum and the running maximum.
-/
import proofs.«167075_j11914239279387_1_alg».proof.Proof.KI.ReduceRun

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum and the running maximum after point n. -/
def acc0 (c : Dev nD) : (n : ℕ) → n < cfg0.N → Vec F S8x64 .f32 × Vec F S8x64 .f32
  | 0, hn => (k0_pay3 (iblk0 V c 0 ⟨0, hn⟩) (k0_pay1 (F := F)), k0_pay4 (iblk0 V c 0 ⟨0, hn⟩) (k0_pay2 (F := F)))
  | n + 1, hn => (k0_pay3 (iblk0 V c 0 ⟨n + 1, hn⟩) (acc0 c n (Nat.lt_of_succ_lt hn)).1,
      k0_pay4 (iblk0 V c 0 ⟨n + 1, hn⟩) (acc0 c n (Nat.lt_of_succ_lt hn)).2)

theorem acc0_zero (c : Dev nD) (hn : 0 < cfg0.N) :
    acc0 V c 0 hn = (k0_pay3 (iblk0 V c 0 ⟨0, hn⟩) (k0_pay1 (F := F)), k0_pay4 (iblk0 V c 0 ⟨0, hn⟩) (k0_pay2 (F := F))) := rfl
theorem acc0_succ (c : Dev nD) (n : ℕ) (hn : n + 1 < cfg0.N) :
    acc0 V c (n + 1) hn = (k0_pay3 (iblk0 V c 0 ⟨n + 1, hn⟩) (acc0 V c n (Nat.lt_of_succ_lt hn)).1,
      k0_pay4 (iblk0 V c 0 ⟨n + 1, hn⟩) (acc0 V c n (Nat.lt_of_succ_lt hn)).2) := rfl

/-- The other kernel's five staging buffers (scoped, staged by no window of this kernel), each whole at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant before position n: before the first point the class invariant (every scoped buffer no
    window stages at anything, the generator register at some state); afterwards the same with the two scratch
    buffers at what the point before left. -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2
      ∗ otherStaging c ∗ (∃ r, prngReg c r))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay5 (acc0 V c t.val t.isLt).1
    | ⟨2, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay5 (acc0 V c t.val t.isLt).1 := by dsimp only [dat0]
theorem after0_2 (c : Dev nD) (t : Fin cfg0.N) : (dat0 V c).after 2 t = (acc0 V c t.val t.isLt).2 := by dsimp only [dat0]

/-! ## The invariant, position by position -/

/-- The class invariant with the two scratch buffers named: each whole at some contents, then the other kernel's
    staging buffers and the generator register. -/
private theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ otherStaging c)
          ∗ (∃ r, prngReg c r)) := by
  unfold Pipeline.ΦA otherStaging; rw [scopedRest0_eq]; simp only [scM0_0, scM0_1, owns_whole]; rfl

private theorem PhiS0_first (c : Dev nD) (n : ℕ) (h : n ≤ cfg0.N) (hz : n = 0) : PhiS0 V c n h = Pipeline.ΦA spec0 c := by
  subst hz; rfl

/-- Before position n + 1 the scratch buffers hold the pair point n left. -/
private theorem PhiS0_next (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2
      ∗ otherStaging c ∗ (∃ r, prngReg c r)) := rfl

/-- The same read backwards, at a position that is not the first. -/
private theorem PhiS0_later (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2
      ∗ otherStaging c ∗ (∃ r, prngReg c r)) := by
  cases n with
  | zero => exact absurd rfl hz
  | succ n => rfl

/-- The proof data's invariant when point t begins. -/
private theorem Phi_start0 (c : Dev nD) (t : Fin cfg0.N) : (dat0 V c).Φ t.castSucc = PhiS0 V c t.val (Nat.le_of_lt t.isLt) := by
  dsimp only [dat0]; simp only [Fin.coe_castSucc]

/-- The input window is fetched at every point, so its current staging buffer holds its block whatever it held. -/
private theorem before0_0 (c : Dev nD) (t : Fin cfg0.N) (d) : (dat0 V c).before 0 t d = iblk0 V c 0 t := by
  rw [(dat0 V c).before_fetched 0 t (fetch0_0 t) d]
  unfold Dat.fetched Dat.blockOf iblk0; rw [A_eq0]; rfl

/-- The pair after the first point: one block folded into the neutral elements. -/
private theorem acc0_at_first (c : Dev nD) (t : Fin cfg0.N) (h : t.val = 0) :
    acc0 V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact absurd h (Nat.succ_ne_zero n)

/-- The pair after a later point: that point's block folded into the pair the point before left. -/
private theorem acc0_at_later (c : Dev nD) (t : Fin cfg0.N) (h : t.val ≠ 0) :
    acc0 V c t.val t.isLt = (k0_pay3 (iblk0 V c 0 t) (acc0 V c (t.val - 1) (Nat.lt_of_le_of_lt (Nat.sub_le _ _) t.isLt)).1,
      k0_pay4 (iblk0 V c 0 t) (acc0 V c (t.val - 1) (Nat.lt_of_le_of_lt (Nat.sub_le _ _) t.isLt)).2) := by
  obtain ⟨n, hn⟩ := t
  cases n with
  | zero => exact absurd rfl h
  | succ n => rfl

/-! ## The body at a point -/

/-- What the body is handed at point t: the invariant, the core's debts, and each window's current staging buffer. -/
private def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it gives back. -/
private def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

/-- The input window is live everywhere: the body leaves its block where it found it. -/
private theorem leaves_in0 (c : Dev nD) (t : Fin cfg0.N) :
    (dat0 V c).leavesExact 0 t = owns (c : Thread nD τ) (ms0_0 t) fullShare (iblk0 V c 0 t) := by
  unfold Dat.leavesExact; rw [liveAt0_0 t, after0_0]

/-- A result window away from the last point is idle and not written back: its buffer returns as found. -/
private theorem leaves_idle0_1 (c : Dev nD) (t : Fin cfg0.N) (hc1 : ¬cond0_1 (grid0.coords t)) :
    (dat0 V c).leavesExact 1 t = iprop(∃ d, owns (c : Thread nD τ) (ms0_1 t) fullShare ((dat0 V c).before 1 t d)) :=
  Dat.leavesExact_idle (dat0 V c) 1 t (idleAt0_1 t hc1) (noFlush0_1 t hc1)
private theorem leaves_idle0_2 (c : Dev nD) (t : Fin cfg0.N) (hc1 : ¬cond0_1 (grid0.coords t)) :
    (dat0 V c).leavesExact 2 t = iprop(∃ d, owns (c : Thread nD τ) (ms0_2 t) fullShare ((dat0 V c).before 2 t d)) :=
  Dat.leavesExact_idle (dat0 V c) 2 t (idleAt0_2 t hc1) (noFlush0_2 t hc1)

/-- At the last point both result windows are live: each ends at what the proof data says. -/
private theorem leaves_live0_1 (c : Dev nD) (t : Fin cfg0.N) (hc1 : cond0_1 (grid0.coords t)) :
    (dat0 V c).leavesExact 1 t = owns (c : Thread nD τ) (ms0_1 t) fullShare (k0_pay5 (acc0 V c t.val t.isLt).1) := by
  unfold Dat.leavesExact; rw [liveAt0_1 t hc1, after0_1]
private theorem leaves_live0_2 (c : Dev nD) (t : Fin cfg0.N) (hc1 : cond0_1 (grid0.coords t)) :
    (dat0 V c).leavesExact 2 t = owns (c : Thread nD τ) (ms0_2 t) fullShare (acc0 V c t.val t.isLt).2 := by
  unfold Dat.leavesExact; rw [liveAt0_2 t hc1, after0_2]

/-- THE FIRST POINT. The scratch buffers come out of the class invariant at anything; the reset overwrites them, the
    block is folded in, and the result windows go back untouched. -/
private theorem body_first (c : Dev nD) (t : Fin cfg0.N) (h : t.val = 0) :
    pre0 V c t ⊢ wp frame (wpE (defs₀ (F := F)) Variants.none c none) Set.univ (bodyAt0 t) (fun _ => post0 V c t) := by
  have hN : cfg0.N = 32 := N_0
  have hc0 : cond0_0 (grid0.coords t) := (hcond0_0 t).mpr h
  have hc1 : ¬cond0_1 (grid0.coords t) := fun e => by have := (hcond0_1 t).mp e; omega
  unfold pre0 post0 bodyAt0
  simp only [before0_0]
  rw [show (dat0 V c).owesAt () t.succ = (dat0 V c).owesAt () t.castSucc from rfl,
    show (dat0 V c).Φ t.succ = PhiS0 V c (t.val + 1) t.isLt from rfl, PhiS0_next,
    leaves_in0, leaves_idle0_1 V c t hc1, leaves_idle0_2 V c t hc1, acc0_at_first V c t h,
    Phi_start0, PhiS0_first V c _ _ h, PhiA0_eq]
  iintro ⟨⟨⟨HS, HM, HO⟩, Hg⟩, Hw, ⟨%d0, H0⟩, ⟨%d1, H1⟩, ⟨%d2, H2⟩⟩
  iapply (run0_first c (grid0.coords t) (ms0_0 t) (hs0_0 t) (ms0_1 t) (hs0_1 t) (ms0_2 t) (hs0_2 t)
    scM0_0 (Memref.isWhole_whole _) scM0_1 (Memref.isWhole_whole _) hc0 hc1
    (iblk0 V c 0 t) ((dat0 V c).before 1 t d1) ((dat0 V c).before 2 t d2) Set.univ _)
  isplitl [H0]; · iexact H0
  isplitl [H1]; · iexact H1
  isplitl [H2]; · iexact H2
  isplitl [HS]; · iexact HS
  isplitl [HM]; · iexact HM
  iintro ⟨H0, H1, H2, HS, HM⟩
  isplitl [HS HM HO Hg]
  · isplitl [HS]; · iexact HS
    isplitl [HM]; · iexact HM
    isplitl [HO]; · iexact HO
    iexact Hg
  isplitl [Hw]; · iexact Hw
  isplitl [H0]; · iexact H0
  isplitl [H1]; · iexists _; iexact H1
  iexists _; iexact H2

/-- A MIDDLE POINT. The invariant names what the scratch buffers hold; the block is folded into that pair, and the
    result windows go back untouched. -/
private theorem body_mid (c : Dev nD) (t : Fin cfg0.N) (h0 : t.val ≠ 0) (h1 : t.val ≠ 31) :
    pre0 V c t ⊢ wp frame (wpE (defs₀ (F := F)) Variants.none c none) Set.univ (bodyAt0 t) (fun _ => post0 V c t) := by
  have hc0 : ¬cond0_0 (grid0.coords t) := fun e => h0 ((hcond0_0 t).mp e)
  have hc1 : ¬cond0_1 (grid0.coords t) := fun e => h1 ((hcond0_1 t).mp e)
  unfold pre0 post0 bodyAt0
  simp only [before0_0]
  rw [show (dat0 V c).owesAt () t.succ = (dat0 V c).owesAt () t.castSucc from rfl,
    show (dat0 V c).Φ t.succ = PhiS0 V c (t.val + 1) t.isLt from rfl, PhiS0_next,
    leaves_in0, leaves_idle0_1 V c t hc1, leaves_idle0_2 V c t hc1, acc0_at_later V c t h0,
    Phi_start0, PhiS0_later V c _ _ h0]
  iintro ⟨⟨HS, HM, HO, Hg⟩, Hw, ⟨%d0, H0⟩, ⟨%d1, H1⟩, ⟨%d2, H2⟩⟩
  iapply (run0_mid c (grid0.coords t) (ms0_0 t) (hs0_0 t) (ms0_1 t) (hs0_1 t) (ms0_2 t) (hs0_2 t)
    scM0_0 (Memref.isWhole_whole _) scM0_1 (Memref.isWhole_whole _) hc0 hc1
    (iblk0 V c 0 t) ((dat0 V c).before 1 t d1) ((dat0 V c).before 2 t d2)
    (acc0 V c (t.val - 1) (Nat.lt_of_le_of_lt (Nat.sub_le _ _) t.isLt)).1
    (acc0 V c (t.val - 1) (Nat.lt_of_le_of_lt (Nat.sub_le _ _) t.isLt)).2 Set.univ _)
  isplitl [H0]; · iexact H0
  isplitl [H1]; · iexact H1
  isplitl [H2]; · iexact H2
  isplitl [HS]; · iexact HS
  isplitl [HM]; · iexact HM
  iintro ⟨H0, H1, H2, HS, HM⟩
  isplitl [HS HM HO Hg]
  · isplitl [HS]; · iexact HS
    isplitl [HM]; · iexact HM
    isplitl [HO]; · iexact HO
    iexact Hg
  isplitl [Hw]; · iexact Hw
  isplitl [H0]; · iexact H0
  isplitl [H1]; · iexists _; iexact H1
  iexists _; iexact H2

/-- THE LAST POINT. As at a middle point, and then the two result windows, found at anything, receive the scaled
    running sum and the running maximum. -/
private theorem body_last (c : Dev nD) (t : Fin cfg0.N) (h : t.val = 31) :
    pre0 V c t ⊢ wp frame (wpE (defs₀ (F := F)) Variants.none c none) Set.univ (bodyAt0 t) (fun _ => post0 V c t) := by
  have h0 : t.val ≠ 0 := by omega
  have hc0 : ¬cond0_0 (grid0.coords t) := fun e => h0 ((hcond0_0 t).mp e)
  have hc1 : cond0_1 (grid0.coords t) := (hcond0_1 t).mpr h
  unfold pre0 post0 bodyAt0
  simp only [before0_0]
  rw [show (dat0 V c).owesAt () t.succ = (dat0 V c).owesAt () t.castSucc from rfl,
    show (dat0 V c).Φ t.succ = PhiS0 V c (t.val + 1) t.isLt from rfl, PhiS0_next,
    leaves_in0, leaves_live0_1 V c t hc1, leaves_live0_2 V c t hc1, acc0_at_later V c t h0,
    Phi_start0, PhiS0_later V c _ _ h0]
  iintro ⟨⟨HS, HM, HO, Hg⟩, Hw, ⟨%d0, H0⟩, ⟨%d1, H1⟩, ⟨%d2, H2⟩⟩
  iapply (run0_last c (grid0.coords t) (ms0_0 t) (hs0_0 t) (ms0_1 t) (hs0_1 t) (ms0_2 t) (hs0_2 t)
    scM0_0 (Memref.isWhole_whole _) scM0_1 (Memref.isWhole_whole _) hc0 hc1
    (iblk0 V c 0 t)
    (acc0 V c (t.val - 1) (Nat.lt_of_le_of_lt (Nat.sub_le _ _) t.isLt)).1
    (acc0 V c (t.val - 1) (Nat.lt_of_le_of_lt (Nat.sub_le _ _) t.isLt)).2 Set.univ _)
  isplitl [H0]; · iexact H0
  isplitl [H1]; · iexists _; iexact H1
  isplitl [H2]; · iexists _; iexact H2
  isplitl [HS]; · iexact HS
  isplitl [HM]; · iexact HM
  iintro ⟨H0, H1, H2, HS, HM⟩
  isplitl [HS HM HO Hg]
  · isplitl [HS]; · iexact HS
    isplitl [HM]; · iexact HM
    isplitl [HO]; · iexact HO
    iexact Hg
  isplitl [Hw]; · iexact Hw
  isplitl [H0]; · iexact H0
  isplitl [H1]; · iexact H1
  iexact H2

/-- The body obligation of the reduction at every point: the three windows conjoined one by one, then the case the
    point is in. -/
theorem body_obligation0 (c : Dev nD) : BodyObligation (dat0 (F := F) V c) (defs₀ (F := F)) Variants.none () Set.univ := fun t => by
  rw [bigSep_W0, bigSep_W0]
  by_cases h0 : t.val = 0
  · exact body_first V c t h0
  · by_cases h1 : t.val = 31
    · exact body_last V c t h1
    · exact body_mid V c t h0 h1

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_first V c 0 _ rfl]

/-- After the last point the invariant gives the class invariant back: the scratch contents are forgotten. -/
theorem hout0 (c : Dev nD) : (dat0 V c).Φ (Fin.last cfg0.N) ⊢ (Pipeline.ΦA spec0 c : sProp 𝕄) := by
  have hN : cfg0.N = 32 := N_0
  rw [show (dat0 V c).Φ (Fin.last cfg0.N) = PhiS0 V c (Fin.last cfg0.N).val (Nat.le_of_lt_succ (Fin.last cfg0.N).isLt) from rfl,
    PhiS0_later V c _ _ (by rw [Fin.val_last]; omega), PhiA0_eq]
  iintro ⟨Hs, Hm, Ho, Hg⟩
  isplitr [Hg]
  · isplitl [Hs]
    · iexists _; iexact Hs
    isplitl [Hm]
    · iexists _; iexact Hm
    iexact Ho
  iexact Hg

end

end Cert.KernelIdeal.Frm

end
-- ==== Proof.KI.ScaleDat.lean ====
/-
  Region 1 (the scaling) as a pipeline: its proof data and its body obligation.

  At each of its 64 points the body loads the gate (8 x 64, the same block at every point) and one block of x
  (8 x 64 x 8 x 512), broadcasts the gate along the last two axes, multiplies, and stores the product over the whole
  output block. Nothing is carried between points.
-/
import proofs.«167075_j11914239279387_1_alg».proof.Proof.KI.Cond

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_g : Rect S8x64 := Rect.unit (s := S8x64) ![0, 0] S8x64.size inb_S8x64_S8x64_0_0
abbrev r1_x : Rect S8x64x8x512 := Rect.unit (s := S8x64x8x512) ![0, 0, 0, 0] S8x64x8x512.size inb_S8x64x8x512_S8x64x8x512_0_0_0_0

/-- The output block after the body, from the x block and the gate block: its one store as a piece. -/
def out1_2 (x0 : Vec F S8x64x8x512 .f32) (g : Vec F S8x64 .f32) : Vec F S8x64x8x512 .f32 :=
  View.canon [⟨r1_x, k1_pay1 (View.ld g r1_g) (View.ld x0 r1_x)⟩]

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## The input windows hold their blocks at every point -/

/-- The x window's staging buffer holds the x block of the point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The gate window's staging buffer holds the gate at every point: it is fetched at the first point only, and
    its block index never moves, so what the body left there at the point before is still the gate. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's one store covers the output block -/

/-- The one store's rectangle is the whole output block, so it covers every index of it. -/
theorem cover1_2 (p : Vec F S8x64x8x512 .f32) (y : S8x64x8x512.Idx) :
    ∃ pc ∈ ([⟨r1_x, p⟩] : List (View.Piece (Elt F) S8x64x8x512 .f32)), y ∈ pc.1.set :=
  View.cover_of_tiled [⟨r1_x, p⟩] S8x64x8x512.size (by rfl) y

/-! ## The body's triple -/

set_option maxHeartbeats 1000000 in
/-- The body on whole staging memrefs: with the x buffer reading x, the gate buffer reading g and the output buffer at
    anything, it runs to a continuation that gets the two inputs back as they were and the output buffer reading
    the product block. The body's read of the output buffer before its store has no effect: its value is not used,
    and the store that follows overwrites every index. -/
theorem sound_kernel1 (c : Dev nD) (E : Set ℕ) (i : grid1.Coords)
    (ax : Memref sig .tc .vmem S8x64x8x512 .f32) (hx : ax.IsWhole)
    (ag : Memref sig .tc .vmem S8x64 .f32) (hg : ag.IsWhole)
    (ao : Memref sig .tc .vmem S8x64x8x512 .f32) (ho : ao.IsWhole)
    (x : Vec F S8x64x8x512 .f32) (g : Vec F S8x64 .f32) (K : PUnit → sProp 𝕄) :
    iprop(owns (c : Thread nD τ) ax fullShare x ∗ owns (c : Thread nD τ) ag fullShare g
        ∗ (∃ d, owns (c : Thread nD τ) ao fullShare d)
        ∗ (iprop(owns (c : Thread nD τ) ax fullShare x ∗ owns (c : Thread nD τ) ag fullShare g
            ∗ owns (c : Thread nD τ) ao fullShare (out1_2 x g)) -∗ K ⟨⟩))
      ⊢ wp frame (wpE (defs₀ (F := F)) Variants.none c none) E (cc1__scale_kernel i ax hx ag hg ao ho) K := by
  simp only [cc1__scale_kernel_eq_skeleton]; unfold cc1__scale_kernel_skel
  unfold owns
  iintro ⟨⟨%fx, %hfx, Hx⟩, ⟨%fg, %hfg, Hg⟩, ⟨%d, %fo, -, Ho⟩, Hk⟩
  subst hfx; subst hfg
  sl_exec
  sl_step
  iapply Hk
  isplitl [Hx]
  · iexists fx; isplitr
    · ipureintro; rfl
    · iexact Hx
  isplitl [Hg]
  · iexists fg; isplitr
    · ipureintro; rfl
    · iexact Hg
  iexists _; isplitr
  swap; · iexact Ho
  ipureintro
  exact View.read_writes_eq_canon _ _ _ (cover1_2 _)

/-! ## The body obligation at a point -/

/-- What the body is handed at point t: the invariant, the core's dues, and the three current staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and dues, the inputs as found, the output block at the product. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at point t: both inputs' buffers hold their blocks, so the body's triple applies with x the x block
    and g the gate; the invariant and the dues are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [after1_0, after1_1, after1_2,
    show (dat1 V c).Φ t.succ = (dat1 V c).Φ t.castSucc from rfl,
    show (dat1 V c).owesAt () t.succ = (dat1 V c).owesAt () t.castSucc from rfl]
  iintro ⟨HΦ, Hd, ⟨%d0, Hx⟩, ⟨%d1, Hg⟩, ⟨%d2, Ho⟩⟩
  iapply (sound_kernel1 c Set.univ _ _ _ _ _ _ _ (iblk1 V c 0 t) (iblk1 V c 1 t) _)
  isplitl [Hx]; · iexact Hx
  isplitl [Hg]; · iexact Hg
  isplitl [Ho]; · iexists _; iexact Ho
  iintro ⟨Hx, Hg, Ho⟩
  isplitl [HΦ]; · iexact HΦ
  isplitl [Hd]; · iexact Hd
  isplitl [Hx]; · iexact Hx
  isplitl [Hg]; · iexact Hg
  iexact Ho

/-- The body obligation of the scaling at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frm

end
-- ==== Proof.KI.Whole.lean ====
/-
  The whole run of the program: the reduction region, three stretches of host operations (the gate's small
  matrix products, leaky-ReLU and sigmoid), the scaling region.

  The contents of the TensorCore's unscoped buffers at each boundary between two items are defined one after the
  other from the launch memory: a region replaces its windows' arrays by what its write-backs leave, a stretch of host
  operations is folded over the contents it finds. The run theorem says that every weakly fair execution from zero
  counters terminates with every unscoped buffer at the last of these contents; the frame (the three arguments end as
  launched) and the result array's contents are read off it.
-/
import proofs.«167075_j11914239279387_1_alg».proof.Proof.KI.ReduceDat
import proofs.«167075_j11914239279387_1_alg».proof.Proof.KI.ScaleDat
import proofs.«167075_j11914239279387_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what the reduction's proof data take). -/
abbrev U0 : (c : Dev nD) → (b : Ref sig .tc) → Buf (Elt F) ((c : Thread nD τ).loc b) := fun c b => W0 m ρ c b
/-- After the reduction region: its arrays at what the pipeline leaves, every other buffer as entered. -/
def W1 (c : Dev nD) : Valuation τ sig (Elt F) :=
  Pipeline.withArrays spec0 c (W0 m ρ c) fun w => (dat0 (U0 m ρ) c).arrAt w cfg0.N
/-- After the first stretch of host operations, -/
abbrev W2 : Dev nD → Valuation τ sig (Elt F) := fun c => StableHlo.after hostOps1 (W1 m ρ c)
/-- the second (the select), -/
abbrev W3 : Dev nD → Valuation τ sig (Elt F) := fun c => StableHlo.after hostOps1_1 (W2 m ρ c)
/-- and the third: the scaling region's entry. -/
abbrev W4 : Dev nD → Valuation τ sig (Elt F) := fun c => StableHlo.after hostOps1_2 (W3 m ρ c)
/-- The same read at the TensorCore's references (what the scaling's proof data take). -/
abbrev U4 : (c : Dev nD) → (b : Ref sig .tc) → Buf (Elt F) ((c : Thread nD τ).loc b) := fun c b => W4 m ρ c b
/-- After the scaling region. -/
def W5 (c : Dev nD) : Valuation τ sig (Elt F) :=
  Pipeline.withArrays spec1 c (W4 m ρ c) fun w => (dat1 (U4 m ρ) c).arrAt w cfg1.N

/-! ## What the boundaries' contents are at the buffers the claims read -/

/-- After the reduction region each of its arrays holds what the pipeline leaves there. -/
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_main_v0_0 (c : Dev nD) : W1 m ρ c (Proc.devRef .tc main_v0_0) = (dat0 (U0 m ρ) c).arrAt 1 cfg0.N :=
  W1_arr m ρ c 1
theorem W1_main_v0_1 (c : Dev nD) : W1 m ρ c (Proc.devRef .tc main_v0_1) = (dat0 (U0 m ρ) c).arrAt 2 cfg0.N :=
  W1_arr m ρ c 2
/-- A buffer that is no array of the reduction is as launched after it. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The reduction only reads its first window's array: it leaves it as it found it. -/
theorem W1_main_arg0 (c : Dev nD) : W1 m ρ c (Proc.devRef .tc main_arg0) = W0 m ρ c (Proc.devRef .tc main_arg0) :=
  (W1_arr m ρ c 0).trans (((dat0 (U0 m ρ) c).arrAt_in 0 rfl _).trans (A_eq0 (U0 m ρ) c 0))

/-- A buffer none of the three stretches of host operations writes reaches the scaling region as the reduction left it. -/
theorem W4_of_not_written (c : Dev nD) (r : Ref sig .tc) (h1 : r ∉ hostOps1_W) (h2 : r ∉ hostOps1_1_W) (h3 : r ∉ hostOps1_2_W) :
    W4 m ρ c (Proc.devRef .tc r) = W1 m ρ c (Proc.devRef .tc r) :=
  calc W4 m ρ c (Proc.devRef .tc r)
    _ = W3 m ρ c (Proc.devRef .tc r) := StableHlo.after_of_writes_sub hostOps1_2 _ hostOps1_2_writes h3
    _ = W2 m ρ c (Proc.devRef .tc r) := StableHlo.after_of_writes_sub hostOps1_1 _ hostOps1_1_writes h2
    _ = W1 m ρ c (Proc.devRef .tc r) := StableHlo.after_of_writes_sub hostOps1 _ hostOps1_writes h1

theorem W4_main_arg0 (c : Dev nD) : W4 m ρ c (Proc.devRef .tc main_arg0) = m ((c : Thread nD τ).loc main_arg0) :=
  (W4_of_not_written m ρ c main_arg0 (by decide) (by decide) (by decide)).trans (W1_main_arg0 m ρ c)
theorem W4_main_arg1 (c : Dev nD) : W4 m ρ c (Proc.devRef .tc main_arg1) = m ((c : Thread nD τ).loc main_arg1) :=
  (W4_of_not_written m ρ c main_arg1 (by decide) (by decide) (by decide)).trans (W1_of_ne m ρ c main_arg1 (by decide))
theorem W4_main_arg2 (c : Dev nD) : W4 m ρ c (Proc.devRef .tc main_arg2) = m ((c : Thread nD τ).loc main_arg2) :=
  (W4_of_not_written m ρ c main_arg2 (by decide) (by decide) (by decide)).trans (W1_of_ne m ρ c main_arg2 (by decide))

/-- After the scaling region each of its arrays holds what the pipeline leaves there, -/
theorem W5_arr (c : Dev nD) (w : Fin cfg1.W) :
    W5 m ρ c (Proc.devRef .tc (Pipeline.arrRef spec1 w)) = (dat1 (U4 m ρ) c).arrAt w cfg1.N := by
  unfold W5; exact Pipeline.withArrays_arr spec1 launch1.win.arr_inj c _ _ w
/-- and every other buffer what it held when the region was entered. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
theorem W5_main_arg0 (c : Dev nD) : W5 m ρ c (Proc.devRef .tc main_arg0) = m ((c : Thread nD τ).loc main_arg0) :=
  ((W5_arr m ρ c 0).trans (((dat1 (U4 m ρ) c).arrAt_in 0 rfl _).trans (A_eq1 (U4 m ρ) c 0))).trans (W4_main_arg0 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W5_main_arg2 (c : Dev nD) : W5 m ρ c (Proc.devRef .tc main_arg2) = m ((c : Thread nD τ).loc main_arg2) :=
  (W5_of_ne m ρ c main_arg2 (by decide)).trans (W4_main_arg2 m ρ c)
theorem W5_main_v21 (c : Dev nD) : W5 m ρ c (Proc.devRef .tc main_v21) = (dat1 (U4 m ρ) c).arrAt 2 cfg1.N :=
  W5_arr m ρ c 2

/-! ## The proof data and what a core holds between two items -/

/-- The proof data of the two pipelines, each at the contents its region is entered from: the reduction at the launch
    memory, the scaling at what the three stretches of host operations leave. Written as a match on the literal index
    so that the data of pipeline 0 or 1 reduce to the region's own. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U4 m ρ) c

/-- No body has variants; no core owes another core anything, so no pair is assigned a level. -/
abbrev noVar : Variants := Variants.none
abbrev noPairs : GSem nD τ sig → Finset Unit := fun _ => ∅
abbrev noLvl : GSem nD τ sig → Unit → ℕ := fun _ _ => 0

/-- Core c holding every unscoped buffer whole, at the valuation V. -/
abbrev holds (c : Dev nD) (V : Valuation τ sig (Elt F)) : sProp 𝕄 :=
  StableHlo.held (c : Thread nD τ) (Pipeline.ucRefs τ sig) V
/-- The core's generator register at some state. -/
abbrev someGen (c : Dev nD) : sProp 𝕄 := iprop(∃ r, prngReg c r)
/-- The core owing nothing, whatever pairs it has recorded. -/
abbrev owesNothing (c : Dev nD) : sProp 𝕄 := iprop(∃ W, owes (c : Thread nD τ) (0 : CellTallies nD τ sig Unit) W)
/-- What a core holds beside its buffers between two items of the program. -/
abbrev side (c : Dev nD) : sProp 𝕄 := iprop(someGen (F := F) c ∗ owesNothing (F := F) c)

/-- A stretch of host operations as an item: run over the unscoped buffers from the valuation W c to the stretch
    folded over it, the side state untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (side (F := F))

/-- An unscoped reference of the TensorCore is among the buffers a core holds between two items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two regions as items

  A region takes its windows' arrays out of the unscoped buffers at entry and puts them back at exit, at the valuation
  with those arrays replaced by what the pipeline leaves; the generator register goes into the region's invariant and
  comes back; the core owes nothing before and after; the kernels have no semaphore of their own. -/

/-- What the reduction leaves in its arrays is what the next valuation holds there, -/
theorem exitArr0 (c : Dev nD) (w : Fin cfg0.W) :
    (dat0 (U0 m ρ) c).arrAt w cfg0.N = W1 m ρ c (Proc.devRef .tc (Pipeline.arrRef spec0 w)) := (W1_arr m ρ c w).symm
/-- and off its arrays that valuation is the launch memory. -/
theorem exitRest0 (c : Dev nD) (b : Ref sig .tc) (hb : b ∉ Finset.univ.image (Pipeline.arrRef spec0)) :
    W1 m ρ c (Proc.devRef .tc b) = W0 m ρ c (Proc.devRef .tc b) :=
  W1_of_ne m ρ c b fun w e => hb (Finset.mem_image.mpr ⟨w, Finset.mem_univ _, e⟩)
/-- The same two facts for the scaling region. -/
theorem exitArr1 (c : Dev nD) (w : Fin cfg1.W) :
    (dat1 (U4 m ρ) c).arrAt w cfg1.N = W5 m ρ c (Proc.devRef .tc (Pipeline.arrRef spec1 w)) := (W5_arr m ρ c w).symm
theorem exitRest1 (c : Dev nD) (b : Ref sig .tc) (hb : b ∉ Finset.univ.image (Pipeline.arrRef spec1)) :
    W5 m ρ c (Proc.devRef .tc b) = W4 m ρ c (Proc.devRef .tc b) :=
  W5_of_ne m ρ c b fun w e => hb (Finset.mem_image.mpr ⟨w, Finset.mem_univ _, e⟩)

-- the library's lemmas are stated over the pinned configuration of a pipeline index: unifying them with the printed
-- configuration unfolds plain definitions inside a metavariable's type
set_option backward.isDefEq.respectTransparency.types false in
/-- The reduction region: entered from the launch memory, left at W1. Its invariant is the running pair in the two
    scratch buffers; it starts from and ends in the class invariant, which is where the generator register rides. -/
def reg0 : Pipeline.RegionSeg (pcfgs (F := F)) adm (pdats m ρ) () defs₀ noVar noPairs noLvl 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ noPairs noLvl 0 fun _ _ => rfl
  pre c := iprop(holds c (W0 m ρ c) ∗ side c)
  post c := iprop(holds c (W1 m ρ c) ∗ side c)
  X c := someGen c
  Y c := someGen c
  Z c := Pipeline.unscopedRest (Ix := Unit) (Name := ℕ) (U := UR sig nD τ) (Lvl := ℕ) spec0 c (U0 m ρ c)
  hentry c := by
    have htake := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at htake
    rw [Pipeline.ownSems0_none]
    iintro ⟨⟨Hbufs, Hgen, Howe⟩, -, -⟩
    ihave Hsp := htake $$ Hbufs
    icases Hsp with ⟨Harr, Hoff⟩
    icases Howe with ⟨%Wr, Howe⟩
    imodintro
    isplitl [Harr]; · iexact Harr
    isplitr
    · unfold Pipeline.prefHeld
      rw [show (Finset.univ : Finset (Fin 0)) = ∅ from rfl, BI.bigSep_empty]; iempintro
    isplitl [Howe]
    · unfold Pipeline.Dat.owesAt Pipeline.owesWithin
      iexists Wr
      isplitr; · ipureintro; exact fun _ _ => Or.inl trivial
      iexact Howe
    isplitl [Hgen]; · iexact Hgen
    iexact Hoff
  hin c := by
    refine BIBase.Entails.trans ?_ (hin0 (U0 m ρ) c)
    unfold Pipeline.ΦA
    iintro ⟨Hgen, -, Hsc⟩
    isplitl [Hsc]; · iexact Hsc
    iexact Hgen
  hout c := by
    rw [Pipeline.ownSems0_none]
    refine BIBase.Entails.trans (hout0 (U0 m ρ) c) ?_
    unfold Pipeline.ΦA
    iintro ⟨Hsc, Hgen⟩
    isplitl [Hgen]; · iexact Hgen
    isplitr; · iempintro
    iexact Hsc
  hexit c := by
    have hput := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (fun b => W1 m ρ c b) ((pdats m ρ 0 c).arrAt · cfg0.N) (exitArr0 m ρ c) (exitRest0 m ρ c)
    rw [Pipeline.unscopedBufs_held] at hput
    iintro ⟨Harr, Howe, Hgen, Hoff⟩
    unfold Pipeline.Dat.owesAt Pipeline.owesWithin
    icases Howe with ⟨%Wr, -, Howe⟩
    imodintro
    isplitl [Harr Hoff]
    · iapply hput; isplitl [Harr]; · iexact Harr
      iexact Hoff
    isplitl [Hgen]; · iexact Hgen
    iexists Wr; iexact Howe

-- as for the reduction region
set_option backward.isDefEq.respectTransparency.types false in
/-- The scaling region: entered from W4, left at W5. Its invariant is the class invariant throughout. -/
def reg1 : Pipeline.RegionSeg (pcfgs (F := F)) adm (pdats m ρ) () defs₀ noVar noPairs noLvl 1 where
  win := launch1.win.to₀
  block_pos := launch1.block_pos
  stage_whole := launch1.stage_whole
  K := PEmpty
  osem k := k.elim
  ho := Pipeline.OwnSemFacts.none _
  hbody c := (body_obligation1 (U4 m ρ) c).loose
  hwaits := Pipeline.hwaits_of_owed_zero _ _ _ _ noPairs noLvl 1 fun _ _ => rfl
  pre c := iprop(holds c (W4 m ρ c) ∗ side c)
  post c := iprop(holds c (W5 m ρ c) ∗ side c)
  X c := someGen c
  Y c := someGen c
  Z c := Pipeline.unscopedRest (Ix := Unit) (Name := ℕ) (U := UR sig nD τ) (Lvl := ℕ) spec1 c (U4 m ρ c)
  hentry c := by
    have htake := Pipeline.arrays_of_unscopedBufs (p := 1) (pcfgs (F := F)) adm (pdats m ρ) launch1.win launch1.arr_whole c
      ((pdats m ρ 1 c).share_full fun _ => rfl) (U4 m ρ c) fun _ => rfl
    rw [Pipeline.unscopedBufs_held] at htake
    rw [Pipeline.ownSems0_none]
    iintro ⟨⟨Hbufs, Hgen, Howe⟩, -, -⟩
    ihave Hsp := htake $$ Hbufs
    icases Hsp with ⟨Harr, Hoff⟩
    icases Howe with ⟨%Wr, Howe⟩
    imodintro
    isplitl [Harr]; · iexact Harr
    isplitr
    · unfold Pipeline.prefHeld
      rw [show (Finset.univ : Finset (Fin 0)) = ∅ from rfl, BI.bigSep_empty]; iempintro
    isplitl [Howe]
    · unfold Pipeline.Dat.owesAt Pipeline.owesWithin
      iexists Wr
      isplitr; · ipureintro; exact fun _ _ => Or.inl trivial
      iexact Howe
    isplitl [Hgen]; · iexact Hgen
    iexact Hoff
  hin c := by
    rw [show (pdats m ρ 1 c).Φ 0 = Pipeline.ΦA spec1 c from rfl]
    unfold Pipeline.ΦA
    iintro ⟨Hgen, -, Hsc⟩
    isplitl [Hsc]; · iexact Hsc
    iexact Hgen
  hout c := by
    rw [Pipeline.ownSems0_none, show (pdats m ρ 1 c).Φ (Fin.last _) = Pipeline.ΦA spec1 c from rfl]
    unfold Pipeline.ΦA
    iintro ⟨Hsc, Hgen⟩
    isplitl [Hgen]; · iexact Hgen
    isplitr; · iempintro
    iexact Hsc
  hexit c := by
    have hput := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (fun b => W5 m ρ c b) ((pdats m ρ 1 c).arrAt · cfg1.N) (exitArr1 m ρ c) (exitRest1 m ρ c)
    rw [Pipeline.unscopedBufs_held] at hput
    iintro ⟨Harr, Howe, Hgen, Hoff⟩
    unfold Pipeline.Dat.owesAt Pipeline.owesWithin
    icases Howe with ⟨%Wr, -, Howe⟩
    imodintro
    isplitl [Harr Hoff]
    · iapply hput; isplitl [Harr]; · iexact Harr
      iexact Hoff
    isplitl [Hgen]; · iexact Hgen
    iexists Wr; iexact Howe

/-! ## The program as its five items -/

/-- The reduction, the three stretches of host operations each from the valuation the item before it leaves, the
    scaling. -/
abbrev items : List (Pipeline.Seg (pcfgs (F := F)) adm (pdats m ρ) () defs₀ noVar noPairs noLvl) :=
  [ .region (reg0 m ρ),
    .host (stretch hostOps1 hostOps1_sub hostOps1_fresh (W1 m ρ)),
    .host (stretch hostOps1_1 hostOps1_1_sub hostOps1_1_fresh (W2 m ρ)),
    .host (stretch hostOps1_2 hostOps1_2_sub hostOps1_2_fresh (W3 m ρ)),
    .region (reg1 m ρ) ]

/-- The program is the run of its items: both are the same chain of five fragments. -/
theorem main_items (c : Dev nD) : main (F := F) c = Pipeline.Seg.run (items m ρ) :=
  (main_chain c).trans (by chain_rfl)

/-! ## The run -/

-- the launch theorem's implicit arguments are found by unifying its conclusion with the statement
set_option backward.isDefEq.respectTransparency.types false in
/-- From any memory with zero counters, every weakly fair execution of the program on the TensorCores terminates,
    nothing faulting, with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ noVar noPairs noLvl m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(holds c (W0 m ρ c) ∗ side c))
    (Tₙ := fun c => iprop(holds c (W5 m ρ c) ∗ someGen c))
    (hch := ⟨fun _ => .rfl, fun _ => .rfl, fun _ => .rfl, fun _ => .rfl, fun _ => .rfl, fun c => by
      show iprop(holds c (W5 m ρ c) ∗ side c) ⊢ iprop((holds c (W5 m ρ c) ∗ someGen c) ∗ owesNothing c)
      iintro ⟨Hbufs, Hgen, Howe⟩
      isplitl [Hbufs Hgen]
      · isplitl [Hbufs]; · iexact Hbufs
        iexact Hgen
      iexact Howe⟩)
    (hinit := by
      refine Pipeline.initEach noPairs noLvl fun c => ?_
      rw [show unscopedBufs c (fun b => m ((c : Thread nD τ).loc b)) = holds c (W0 m ρ c)
        from Pipeline.unscopedBufs_held c (W0 m ρ c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = W5 m ρ c b)
    (hfin := fun c s' => by
      iintro ⟨⟨Hbufs, -⟩, Hst⟩
      unfold holds StableHlo.held
      imodintro
      iapply (pointsTo_read_all (Pipeline.ucRefs τ sig) (fun b => (((c : Thread nD τ)).1, b)) (W5 m ρ c) s')
      isplitl [Hbufs]; · iexact Hbufs
      iexact Hst)
    (hQ := fun s h c => h c)

/-- The frame: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- The run with the result array named: what the scaling region's write-backs leave. -/
theorem run_result : θ_run defs (onTc (τ := τ) (main (F := F))) ⟨m, fun _ => 0, ρ⟩ (fun r => ∀ c : Dev nD,
      r.2.mem ((c.tc : Thread nD τ).loc main_v21) = (dat1 (U4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v21 (by decide))).trans (W5_main_v21 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Frm

end
-- ==== Proof.Val.Gate.lean ====
/-
  The gate: the small host computation between the two kernel regions, as ONE function of the reduction's two results
  (average and maximum, 8 x 64 each) and the two weight matrices.

  [avg | max] (8 x 128) times w1^T gives h (8 x 8); leaky-ReLU with slope 0.2 (a select on h >= 0); times w2^T gives z
  (8 x 64); the gate is sigmoid(z) * 0.4 + 0.8, with sigmoid(z) written 1 / (1 + exp(-z)). Both programs apply exactly
  these operations with exactly these literals, so the bridge never opens this function: it only shows that the values
  going in are equal.
-/
import proofs.«167075_j11914239279387_1_alg».proof.Proof.Gen.KernelIdeal

noncomputable section

namespace Cert.KernelIdeal.Val

open Cert.KernelIdeal Cert.KernelIdeal.Gen
open Idealize.ShloMosaic Idealize.SL.Sem

variable {F : FTy → Type} [FloatOps F]

/-- h = leaky-ReLU([avg | max] · w1^T), 8 x 8. -/
def hidden (avg mx : FVec F S8x64 .f32) (w1 : FVec F S8x128 .f32) : FVec F S8x8 .f32 :=
  let h := Host.dotGeneral dot_S8x128_S128x8_S8x8_1_0_0_1_n_n none
    (concatenate S8x128 1 [⟨S8x64, avg⟩, ⟨S8x64, mx⟩] concatenates_S8x64_S8x64_S8x128_d1)
    (transpose S128x8 [1, 0] w1 transposes_S8x128_S128x8_1_0)
  select (cmpf .oge h (broadcastInDim S8x8 ![] bcast_S_S8x8 (constant (F := F) S_ .f32 0x00000000#32)))
    h (mulf (broadcastInDim S8x8 ![] bcast_S_S8x8 (constant (F := F) S_ .f32 0x3E4CCCCD#32)) h)

/-- gate = sigmoid(h · w2^T) * 0.4 + 0.8, 8 x 64. -/
def gateOf (avg mx : FVec F S8x64 .f32) (w1 : FVec F S8x128 .f32) (w2 : FVec F S64x8 .f32) : FVec F S8x64 .f32 :=
  let z := Host.dotGeneral dot_S8x8_S8x64_S8x64_1_0_0_1_n_n none (hidden avg mx w1)
    (transpose S8x64 [1, 0] w2 transposes_S64x8_S8x64_1_0)
  let one := broadcastInDim S8x64 ![] bcast_S_S8x64 (constant (F := F) S_ .f32 0x3F800000#32)
  addf (mulf (Host.divf one (addf one (Host.exp (Host.negf z))))
      (broadcastInDim S8x64 ![] bcast_S_S8x64 (constant (F := F) S_ .f32 0x3ECCCCCD#32)))
    (broadcastInDim S8x64 ![] bcast_S_S8x64 (constant (F := F) S_ .f32 0x3F4CCCCD#32))

end Cert.KernelIdeal.Val

end
-- ==== Proof.Val.RefTerm.lean ====
/-
  The reference's result as one function of its arguments: x times the gate, the gate being the gate function of the
  mean and the maximum of x over the last two axes, broadcast along those axes; and that function read at an index.
-/
import proofs.«167075_j11914239279387_1_alg».proof.Proof.Gen.ReferenceIdeal
import proofs.«167075_j11914239279387_1_alg».proof.Proof.Val.Gate
import Idealize.ShloMosaic.Lib.Pipeline.Value
import Idealize.ShloMosaic.Lib.ValueIdx

set_option maxRecDepth 16384

noncomputable section

namespace Cert.ReferenceIdeal.Val

open Cert.ReferenceIdeal Cert.ReferenceIdeal.Gen
open Idealize.ShloMosaic Idealize.ShloMosaic.ValueIdx

section AnyF
variable {F : FTy → Type} [FloatOps F]

/-- The mean of x over the last two axes, as the reference computes it. -/
def refAvg (x : FVec F S8x64x512x512 .f32) : FVec F S8x64 .f32 :=
  Host.divf (Host.reduceAdd x (constant (F := F) S_ .f32 0x00000000#32) reducesTo_S8x64x512x512_S8x64_d2_3 h_S_)
    (broadcastInDim S8x64 ![] bcast_S_S8x64 (constant (F := F) S_ .f32 0x48800000#32))

/-- The maximum of x over the last two axes, as the reference computes it. -/
def refMax (x : FVec F S8x64x512x512 .f32) : FVec F S8x64 .f32 :=
  Host.reduce FloatOps.maximumf x (constant (F := F) S_ .f32 0xFF800000#32) reducesTo_S8x64x512x512_S8x64_d2_3 h_S_

/-- The reference's composed term is x times the broadcast gate of its mean and maximum: the same operations with the
    same literals, by unfolding. -/
theorem ref_term_eq (x : FVec F S8x64x512x512 .f32) (w1 : FVec F S8x128 .f32) (w2 : FVec F S64x8 .f32) :
    mulf x (broadcastInDim S8x64x512x512 ![0, 1, 2, 3] bcast_S8x64x1x1_S8x64x512x512_0_1_2_3 (broadcastInDim S8x64x1x1 ![0, 1] bcast_S8x64_S8x64x1x1_0_1 (addf (mulf (Host.divf (broadcastInDim S8x64 ![] bcast_S_S8x64 (constant S_ .f32 0x3F800000#32)) (addf (broadcastInDim S8x64 ![] bcast_S_S8x64 (constant S_ .f32 0x3F800000#32)) (Host.exp (Host.negf (Host.dotGeneral dot_S8x8_S8x64_S8x64_1_0_0_1_n_n none (select (cmpf .oge (Host.dotGeneral dot_S8x128_S128x8_S8x8_1_0_0_1_n_n none (concatenate S8x128 1 [⟨S8x64, (Host.divf (Host.reduceAdd x (constant S_ .f32 0x00000000#32) reducesTo_S8x64x512x512_S8x64_d2_3 h_S_) (broadcastInDim S8x64 ![] bcast_S_S8x64 (constant S_ .f32 0x48800000#32)))⟩, ⟨S8x64, (Host.reduce FloatOps.maximumf x (constant S_ .f32 0xFF800000#32) reducesTo_S8x64x512x512_S8x64_d2_3 h_S_)⟩] concatenates_S8x64_S8x64_S8x128_d1) (transpose S128x8 [1, 0] w1 transposes_S8x128_S128x8_1_0)) (broadcastInDim S8x8 ![] bcast_S_S8x8 (constant S_ .f32 0x00000000#32))) (Host.dotGeneral dot_S8x128_S128x8_S8x8_1_0_0_1_n_n none (concatenate S8x128 1 [⟨S8x64, (Host.divf (Host.reduceAdd x (constant S_ .f32 0x00000000#32) reducesTo_S8x64x512x512_S8x64_d2_3 h_S_) (broadcastInDim S8x64 ![] bcast_S_S8x64 (constant S_ .f32 0x48800000#32)))⟩, ⟨S8x64, (Host.reduce FloatOps.maximumf x (constant S_ .f32 0xFF800000#32) reducesTo_S8x64x512x512_S8x64_d2_3 h_S_)⟩] concatenates_S8x64_S8x64_S8x128_d1) (transpose S128x8 [1, 0] w1 transposes_S8x128_S128x8_1_0)) (mulf (broadcastInDim S8x8 ![] bcast_S_S8x8 (constant S_ .f32 0x3E4CCCCD#32)) (Host.dotGeneral dot_S8x128_S128x8_S8x8_1_0_0_1_n_n none (concatenate S8x128 1 [⟨S8x64, (Host.divf (Host.reduceAdd x (constant S_ .f32 0x00000000#32) reducesTo_S8x64x512x512_S8x64_d2_3 h_S_) (broadcastInDim S8x64 ![] bcast_S_S8x64 (constant S_ .f32 0x48800000#32)))⟩, ⟨S8x64, (Host.reduce FloatOps.maximumf x (constant S_ .f32 0xFF800000#32) reducesTo_S8x64x512x512_S8x64_d2_3 h_S_)⟩] concatenates_S8x64_S8x64_S8x128_d1) (transpose S128x8 [1, 0] w1 transposes_S8x128_S128x8_1_0)))) (transpose S8x64 [1, 0] w2 transposes_S64x8_S8x64_1_0)))))) (broadcastInDim S8x64 ![] bcast_S_S8x64 (constant S_ .f32 0x3ECCCCCD#32))) (broadcastInDim S8x64 ![] bcast_S_S8x64 (constant S_ .f32 0x3F4CCCCD#32)))))
      = mulf x (broadcastInDim S8x64x512x512 ![0, 1, 2, 3] bcast_S8x64x1x1_S8x64x512x512_0_1_2_3
          (broadcastInDim S8x64x1x1 ![0, 1] bcast_S8x64_S8x64x1x1_0_1
            (Cert.KernelIdeal.Val.gateOf (refAvg x) (refMax x) w1 w2))) := rfl

end AnyF

/-- The 8 x 64 index under a full index: its first two coordinates. -/
abbrev low2 (i : S8x64x512x512.Idx) : S8x64x1x1.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
abbrev low1 (i : S8x64x1x1.Idx) : S8x64.Idx := fun a => match a with
  | ⟨0, _⟩ => ⟨(i 0).val, (i 0).isLt⟩
  | ⟨1, _⟩ => ⟨(i 1).val, (i 1).isLt⟩

/-- x times the doubly broadcast gate, at an index: x's entry times the gate's entry of the same (b, ch). -/
theorem scaled_apply (x : FVec Ideal S8x64x512x512 .f32) (g : FVec Ideal S8x64 .f32) (i : S8x64x512x512.Idx) :
    (mulf x (broadcastInDim S8x64x512x512 ![0, 1, 2, 3] bcast_S8x64x1x1_S8x64x512x512_0_1_2_3
        (broadcastInDim S8x64x1x1 ![0, 1] bcast_S8x64_S8x64x1x1_0_1 g)) i : EReal)
      = (x i : EReal) * (g (ix2 (i 0) (i 1)) : EReal) := by
  rw [mulf_apply]
  have h25 := broadcastInDim_apply _ bcast_S8x64x1x1_S8x64x512x512_0_1_2_3
    (broadcastInDim S8x64x1x1 ![0, 1] bcast_S8x64_S8x64x1x1_0_1 g) i (low2 i) (fun a => match a with
    | ⟨0, _⟩ => by show (i 0).val = if (8 : Nat) = 1 then 0 else (i 0).val; rw [if_neg (by decide)]
    | ⟨1, _⟩ => by show (i 1).val = if (64 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])
  have h24 := broadcastInDim_apply _ bcast_S8x64_S8x64x1x1_0_1 g (low2 i) (low1 (low2 i)) (fun a => match a with
    | ⟨0, _⟩ => by show ((low2 i) 0).val = if (8 : Nat) = 1 then 0 else ((low2 i) 0).val; rw [if_neg (by decide)]
    | ⟨1, _⟩ => by show ((low2 i) 1).val = if (64 : Nat) = 1 then 0 else ((low2 i) 1).val; rw [if_neg (by decide)])
  rw [h25, h24]
  have e : low1 (low2 i) = ix2 (i 0) (i 1) := funext fun a => by
    match a with
    | ⟨0, _⟩ => rfl
    | ⟨1, _⟩ => rfl
  rw [e]
  exact rfl

end Cert.ReferenceIdeal.Val

end
-- ==== Proof.Val.GateValue.lean ====
/-
  The gate the scaling region finds is the gate function of what the reduction region left: the three stretches of
  host operations between the two regions, folded over the buffer contents after the reduction, compute at the gate's
  buffer exactly `gateOf` of the two result arrays and the two weight arguments.
-/
import proofs.«167075_j11914239279387_1_alg».proof.Proof.KI.Whole
import proofs.«167075_j11914239279387_1_alg».proof.Proof.Val.Gate
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## The three stretches of host operations, each over any buffer contents `V` -/

/-- The pre-activation `[avg | max] · w1^T` of the first stretch, from the contents it reads. -/
private def pre (avg mx : FVec F S8x64 .f32) (w1 : FVec F S8x128 .f32) : FVec F S8x8 .f32 :=
  Host.dotGeneral dot_S8x128_S128x8_S8x8_1_0_0_1_n_n none
    (concatenate S8x128 1 [⟨S8x64, avg⟩, ⟨S8x64, mx⟩] concatenates_S8x64_S8x64_S8x128_d1)
    (transpose S128x8 [1, 0] w1 transposes_S8x128_S128x8_1_0)

/-- First stretch: the product's buffer holds the pre-activation, -/
private theorem s1_v3 (V : Valuation τ sig (Elt F)) :
    (StableHlo.after hostOps1 V (Proc.devRef .tc main_v3) : FVec F S8x8 .f32)
      = pre (V (Proc.devRef .tc main_v0_0)) (V (Proc.devRef .tc main_v0_1)) (V (Proc.devRef .tc main_arg1)) := by
  after_results
  rfl

/-- the comparison's buffer its test against zero, -/
private theorem s1_v5 (V : Valuation τ sig (Elt F)) :
    (StableHlo.after hostOps1 V (Proc.devRef .tc main_v5) : IVec S8x8 1)
      = cmpf .oge (pre (V (Proc.devRef .tc main_v0_0)) (V (Proc.devRef .tc main_v0_1)) (V (Proc.devRef .tc main_arg1)))
          (broadcastInDim S8x8 ![] bcast_S_S8x8 (constant (F := F) S_ .f32 0x00000000#32)) := by
  after_results
  rfl

/-- and the scaled branch's buffer the slope times it. -/
private theorem s1_v7 (V : Valuation τ sig (Elt F)) :
    (StableHlo.after hostOps1 V (Proc.devRef .tc main_v7) : FVec F S8x8 .f32)
      = mulf (broadcastInDim S8x8 ![] bcast_S_S8x8 (constant (F := F) S_ .f32 0x3E4CCCCD#32))
          (pre (V (Proc.devRef .tc main_v0_0)) (V (Proc.devRef .tc main_v0_1)) (V (Proc.devRef .tc main_arg1))) := by
  after_results
  rfl

/-- Second stretch: the select of the three. -/
private theorem s2_v8 (V : Valuation τ sig (Elt F)) :
    (StableHlo.after hostOps1_1 V (Proc.devRef .tc main_v8) : FVec F S8x8 .f32)
      = select (V (Proc.devRef .tc main_v5)) (V (Proc.devRef .tc main_v3)) (V (Proc.devRef .tc main_v7)) := by
  after_results
  rfl

/-- Third stretch: the gate, from the hidden layer's buffer and the second weight. -/
private theorem s3_v20 (V : Valuation τ sig (Elt F)) :
    (StableHlo.after hostOps1_2 V (Proc.devRef .tc main_v20) : FVec F S8x64 .f32)
      = addf (mulf (Host.divf (broadcastInDim S8x64 ![] bcast_S_S8x64 (constant (F := F) S_ .f32 0x3F800000#32))
              (addf (broadcastInDim S8x64 ![] bcast_S_S8x64 (constant (F := F) S_ .f32 0x3F800000#32))
                (Host.exp (Host.negf (Host.dotGeneral dot_S8x8_S8x64_S8x64_1_0_0_1_n_n none (V (Proc.devRef .tc main_v8))
                  (transpose S8x64 [1, 0] (V (Proc.devRef .tc main_arg2)) transposes_S64x8_S8x64_1_0))))))
            (broadcastInDim S8x64 ![] bcast_S_S8x64 (constant (F := F) S_ .f32 0x3ECCCCCD#32)))
          (broadcastInDim S8x64 ![] bcast_S_S8x64 (constant (F := F) S_ .f32 0x3F4CCCCD#32)) := by
  after_results

/-- The two weight arguments are written by none of the stretches that run before they are read. -/
private theorem s1_arg2 (V : Valuation τ sig (Elt F)) :
    StableHlo.after hostOps1 V (Proc.devRef .tc main_arg2) = V (Proc.devRef .tc main_arg2) := by
  after_results
private theorem s2_arg2 (V : Valuation τ sig (Elt F)) :
    StableHlo.after hostOps1_1 V (Proc.devRef .tc main_arg2) = V (Proc.devRef .tc main_arg2) := by
  after_results

/-- The three stretches in a row, from any contents `V`: the gate's buffer ends at the gate function of what `V`
    holds at the two result arrays and the two weight arguments. The hidden layer is the select of the first
    stretch's three results, and the gate function's own definition is this very composition. -/
private theorem gate_of_stretches (V : Valuation τ sig (Elt F)) :
    (StableHlo.after hostOps1_2 (StableHlo.after hostOps1_1 (StableHlo.after hostOps1 V)) (Proc.devRef .tc main_v20) : FVec F S8x64 .f32)
      = gateOf (V (Proc.devRef .tc main_v0_0)) (V (Proc.devRef .tc main_v0_1))
          (V (Proc.devRef .tc main_arg1)) (V (Proc.devRef .tc main_arg2)) := by
  rw [s3_v20, s2_v8, s1_v5, s1_v3, s1_v7, s2_arg2, s1_arg2]
  rfl

/-- The gate's buffer at the scaling region's entry. -/
theorem gate_eq (c : Dev nD) :
    (W4 m ρ c (Proc.devRef .tc main_v20) : FVec F S8x64 .f32)
      = gateOf (W1 m ρ c (Proc.devRef .tc main_v0_0)) (W1 m ρ c (Proc.devRef .tc main_v0_1))
          (m ((c : Thread nD τ).loc main_arg1)) (m ((c : Thread nD τ).loc main_arg2)) := by
  -- the entry contents are the three stretches folded over what the reduction left
  refine (gate_of_stretches (W1 m ρ c)).trans ?_
  -- and the reduction leaves the two weight arguments as launched: they are no array of its windows
  have e1 : W1 m ρ c (Proc.devRef .tc main_arg1) = m ((c : Thread nD τ).loc main_arg1) :=
    W1_of_ne m ρ c main_arg1 (by decide)
  have e2 : W1 m ρ c (Proc.devRef .tc main_arg2) = m ((c : Thread nD τ).loc main_arg2) :=
    W1_of_ne m ρ c main_arg2 (by decide)
  rw [e1, e2]

end Cert.KernelIdeal.Val

end
-- ==== Proof.Val.PipeValue.lean ====
/-
  What the two pipelines leave in the arrays the claim reads, at the ideal instance.

  The reduction's two result arrays are whole 8 x 64 blocks written back once, at the last point: they hold what the
  body stored there, the scaled running sum and the running maximum. The scaling's result array is tiled by 64 blocks of
  8 rows, each written back at its own point: entry (b, ch, h, w) is x[b, ch, h, w] times the gate's entry (b, ch), the gate
  being the array the region finds in the buffer the host operations left it in.
-/
import proofs.«167075_j11914239279387_1_alg».proof.Proof.KI.Whole
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

section ReduceAnyF
variable {F : FTy → Type} [FloatOps F]
variable (V : (c : Dev nD) → (b : Ref sig .tc) → Buf (Elt F) ((c : Thread nD τ).loc b))

/-- The two result windows of the reduction sit at block (0, 0) at every point. -/
private theorem resIndex : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The last point of the reduction's grid. -/
private abbrev tLast : Fin cfg0.N := ⟨31, by decide⟩

/-- A point that writes a result window back is the last one. -/
private theorem eq_last_of_flush1 (t : Fin cfg0.N) (hf : (cfg0.win 1).flush t = true) : t = tLast := by
  have hN : cfg0.N = 32 := N_0
  have h := (flush0_1 t).mp hf
  have hlt := t.isLt
  exact Fin.ext (by show t.val = 31; omega)
private theorem eq_last_of_flush2 (t : Fin cfg0.N) (hf : (cfg0.win 2).flush t = true) : t = tLast := by
  have hN : cfg0.N = 32 := N_0
  have h := (flush0_2 t).mp hf
  have hlt := t.isLt
  exact Fin.ext (by show t.val = 31; omega)

/-- Window 1's block at any point, read off an 8 x 64 array, is the array: the block is the whole array. -/
private theorem read_blk1 (t : Fin cfg0.N) (G : Vec F S8x64 .f32) :
    ((cfg0.win 1).blk t).view.read (Elt F) G = G := by
  obtain ⟨e0, e1, -, -⟩ := resIndex t
  funext j
  show G (((cfg0.win 1).blk t).view.emb j) = G j
  congr 1
  funext a; apply Fin.ext
  match a with
  | ⟨0, _⟩ => show win0_1.index t (0 : Fin 2) * 8 + 1 * (j 0).val = (j 0).val; omega
  | ⟨1, _⟩ => show win0_1.index t (1 : Fin 2) * 64 + 1 * (j 1).val = (j 1).val; omega
private theorem read_blk2 (t : Fin cfg0.N) (G : Vec F S8x64 .f32) :
    ((cfg0.win 2).blk t).view.read (Elt F) G = G := by
  obtain ⟨-, -, e0, e1⟩ := resIndex t
  funext j
  show G (((cfg0.win 2).blk t).view.emb j) = G j
  congr 1
  funext a; apply Fin.ext
  match a with
  | ⟨0, _⟩ => show win0_2.index t (0 : Fin 2) * 8 + 1 * (j 0).val = (j 0).val; omega
  | ⟨1, _⟩ => show win0_2.index t (1 : Fin 2) * 64 + 1 * (j 1).val = (j 1).val; omega

/-- Every entry of an 8 x 64 result array lies in the last point's block. -/
private theorem mem_last1 (i : S8x64.Idx) : i ∈ ((cfg0.win 1).blk tLast).view.set := by
  obtain ⟨e0, e1, -, -⟩ := resIndex tLast
  show i ∈ ((View.whole main_v0_0).slice (win0_1.rect tLast)).set
  rw [View.set_slice_whole, Rect.mem_set_unit]
  intro a
  have h0 : (i 0 : Nat) < 8 := (i 0).isLt
  have h1 : (i 1 : Nat) < 64 := (i 1).isLt
  match a with
  | ⟨0, _⟩ => show win0_1.index tLast (0 : Fin 2) * 8 ≤ (i 0 : Nat) ∧ (i 0 : Nat) < win0_1.index tLast (0 : Fin 2) * 8 + 8; omega
  | ⟨1, _⟩ => show win0_1.index tLast (1 : Fin 2) * 64 ≤ (i 1 : Nat) ∧ (i 1 : Nat) < win0_1.index tLast (1 : Fin 2) * 64 + 64; omega
private theorem mem_last2 (i : S8x64.Idx) : i ∈ ((cfg0.win 2).blk tLast).view.set := by
  obtain ⟨-, -, e0, e1⟩ := resIndex tLast
  show i ∈ ((View.whole main_v0_1).slice (win0_2.rect tLast)).set
  rw [View.set_slice_whole, Rect.mem_set_unit]
  intro a
  have h0 : (i 0 : Nat) < 8 := (i 0).isLt
  have h1 : (i 1 : Nat) < 64 := (i 1).isLt
  match a with
  | ⟨0, _⟩ => show win0_2.index tLast (0 : Fin 2) * 8 ≤ (i 0 : Nat) ∧ (i 0 : Nat) < win0_2.index tLast (0 : Fin 2) * 8 + 8; omega
  | ⟨1, _⟩ => show win0_2.index tLast (1 : Fin 2) * 64 ≤ (i 1 : Nat) ∧ (i 1 : Nat) < win0_2.index tLast (1 : Fin 2) * 64 + 64; omega

/-- The first result array after the region, from any entry contents: the scaled running sum of the last point. -/
theorem reduce_avg_of (c : Dev nD) :
    (dat0 V c).arrAt 1 cfg0.N = (k0_pay5 (acc0 V c 31 (by decide)).1 : Vec F S8x64 .f32) :=
  (dat0 V c).arrAt_eq_of_cover 1 (k0_pay5 (acc0 V c 31 (by decide)).1 : Vec F S8x64 .f32)
    (fun t hf => by
      obtain rfl := eq_last_of_flush1 t hf
      show (cfg0.win 1).cut (grid0.coords tLast) ((dat0 V c).after 1 tLast) = _
      rw [after0_1, read_blk1]; rfl)
    (fun i => ⟨tLast, (flush0_1 tLast).mpr rfl, mem_last1 i⟩)

/-- The second: the running maximum of the last point. -/
theorem reduce_max_of (c : Dev nD) :
    (dat0 V c).arrAt 2 cfg0.N = ((acc0 V c 31 (by decide)).2 : Vec F S8x64 .f32) :=
  (dat0 V c).arrAt_eq_of_cover 2 ((acc0 V c 31 (by decide)).2 : Vec F S8x64 .f32)
    (fun t hf => by
      obtain rfl := eq_last_of_flush2 t hf
      show (cfg0.win 2).cut (grid0.coords tLast) ((dat0 V c).after 2 tLast) = _
      rw [after0_2, read_blk2]; rfl)
    (fun i => ⟨tLast, (flush0_2 tLast).mpr rfl, mem_last2 i⟩)

end ReduceAnyF

section AnyF
variable {F : FTy → Type} [FloatOps F]
variable (m : (ℓ : Loc nD τ sig) → Buf (Elt F) ℓ) (ρ : Dev nD → PrngReg)

/-- The reduction's first result array after the region: the scaled running sum of the last point. -/
theorem avg_eq (c : Dev nD) :
    (dat0 (U0 m ρ) c).arrAt 1 cfg0.N = (k0_pay5 (acc0 (U0 m ρ) c 31 (by decide)).1 : Vec F S8x64 .f32) :=
  reduce_avg_of (U0 m ρ) c

/-- The reduction's second result array after the region: the running maximum of the last point. -/
theorem max_eq (c : Dev nD) :
    (dat0 (U0 m ρ) c).arrAt 2 cfg0.N = ((acc0 (U0 m ρ) c 31 (by decide)).2 : Vec F S8x64 .f32) :=
  reduce_max_of (U0 m ρ) c

end AnyF

section ScaleIdeal
variable (V : (c : Dev nD) → (b : Ref sig .tc) → Buf (Elt Ideal) ((c : Thread nD τ).loc b))

private theorem zeros2 : (![0, 0] : Fin 2 → Nat) = fun _ => 0 := funext fun a => by fin_cases a <;> rfl
private theorem zeros4 : (![0, 0, 0, 0] : Fin 4 → Nat) = fun _ => 0 := funext fun a => by fin_cases a <;> rfl

/-- The scaling's index maps over its grid: the x window and the result window sit at block (0, 0, t, 0) at point t,
    the gate window at block (0, 0). -/
private theorem scaleIndex : ∀ t : Fin cfg1.N,
    win1_0.index t (0 : Fin 4) = 0 ∧ win1_0.index t (1 : Fin 4) = 0 ∧ win1_0.index t (2 : Fin 4) = t.val ∧ win1_0.index t (3 : Fin 4) = 0
    ∧ win1_1.index t (0 : Fin 2) = 0 ∧ win1_1.index t (1 : Fin 2) = 0
    ∧ win1_2.index t (0 : Fin 4) = 0 ∧ win1_2.index t (1 : Fin 4) = 0 ∧ win1_2.index t (2 : Fin 4) = t.val ∧ win1_2.index t (3 : Fin 4) = 0 :=
  (by decide +kernel : ∀ t : Fin grid1.N, _)

/-- The gate cast to 8 x 64 x 1 x 1 and broadcast along the last two axes reads, at (b, ch, r, w), the gate at (b, ch):
    the two casts that keep the shape are the identity, the cast that adds two unit axes keeps the row-major position,
    and the broadcast reads its operand at 0 on the two unit axes. -/
private theorem gateSpread_apply {α : Type} (g : S8x64.Idx → α)
    (h1 : S8x64.ShapeCasts S8x64) (h2 : S8x64.ShapeCasts S8x64x1x1) (h3 : S8x64x1x1.ShapeCasts S8x64x1x1)
    (h4 : S8x64x1x1.Broadcasts S8x64x8x512) (b : Fin 8) (ch : Fin 64) (r : Fin 8) (w : Fin 512) :
    broadcastTo S8x64x8x512 (shapeCast S8x64x1x1 (shapeCast S8x64x1x1 (shapeCast S8x64 g h1) h2) h3) h4 (ix4 b ch r w)
      = g (ix2 b ch) := by
  rw [shapeCast_self (shapeCast S8x64x1x1 (shapeCast S8x64 g h1) h2) h3, shapeCast_self g h1]
  refine (broadcastTo_apply _ h4 (ix4 b ch r w) (ix4 b ch (0 : Fin 1) (0 : Fin 1)) fun a => ?_).trans ?_
  · match a with
    | ⟨0, _⟩ => rfl
    | ⟨1, _⟩ => rfl
    | ⟨2, _⟩ => rfl
    | ⟨3, _⟩ => rfl
  · refine shapeCast_apply g h2 (ix4 b ch (0 : Fin 1) (0 : Fin 1)) (ix2 b ch) ?_
    rw [Shape.rowMajor_val_two, Shape.rowMajor_val_four]
    show b.val * 64 + ch.val = ((b.val * 64 + ch.val) * 1 + 0) * 1 + 0
    omega

/-- The body's product at an entry of the block: the x block's entry times the gate's entry of the same (b, ch). -/
private theorem pay_apply (g : FVec Ideal S8x64 .f32) (x : FVec Ideal S8x64x8x512 .f32) (j : S8x64x8x512.Idx) :
    (k1_pay1 (F := Ideal) g x j : EReal) = x j * g (ix2 (j 0) (j 1)) := by
  obtain ⟨b, ch, r, w, rfl⟩ : ∃ b ch r w, j = ix4 b ch r w := ⟨j 0, j 1, j 2, j 3, eq_ix4 j⟩
  unfold k1_pay1
  refine (mulf_apply _ _ _).trans ?_
  exact congrArg (fun z : EReal => x (ix4 b ch r w) * z) (gateSpread_apply g _ _ _ _ b ch r w)

/-- The whole result array: x times the gate's entry of the same (b, ch). -/
abbrev xTimesGate (x : FVec Ideal S8x64x512x512 .f32) (g : FVec Ideal S8x64 .f32) : FVec Ideal S8x64x512x512 .f32 :=
  fun i => x i * g (ix2 (i 0) (i 1))

/-- What point t writes back is block t of that array, of the input and the gate as the region finds them. -/
private theorem flushed_scale (c : Dev nD) (t : Fin cfg1.N) :
    (dat1 V c).flushed 2 t = ((cfg1.win 2).blk t).view.read (Elt Ideal) (xTimesGate (V c main_arg0) (V c main_v20)) := by
  show (cfg1.win 2).cut (grid1.coords t) ((dat1 V c).after 2 t) = _
  rw [after1_2]
  unfold out1_2
  rw [View.canon_unit_zero zeros4]
  simp only [View.ld_unit_zero (S := S8x64x8x512) zeros4, View.ld_unit_zero (S := S8x64) zeros2]
  obtain ⟨x0, x1, x2, x3, g0, g1, o0, o1, o2, o3⟩ := scaleIndex t
  funext j
  refine (pay_apply (iblk1 V c 1 t) (iblk1 V c 0 t) j).trans ?_
  have hx : ((cfg1.win 0).blk t).view.emb j = ((cfg1.win 2).blk t).view.emb j := by
    funext a; apply Fin.ext
    match a with
    | ⟨0, _⟩ => show win1_0.index t (0 : Fin 4) * 8 + 1 * (j 0).val = win1_2.index t (0 : Fin 4) * 8 + 1 * (j 0).val; omega
    | ⟨1, _⟩ => show win1_0.index t (1 : Fin 4) * 64 + 1 * (j 1).val = win1_2.index t (1 : Fin 4) * 64 + 1 * (j 1).val; omega
    | ⟨2, _⟩ => show win1_0.index t (2 : Fin 4) * 8 + 1 * (j 2).val = win1_2.index t (2 : Fin 4) * 8 + 1 * (j 2).val; omega
    | ⟨3, _⟩ => show win1_0.index t (3 : Fin 4) * 512 + 1 * (j 3).val = win1_2.index t (3 : Fin 4) * 512 + 1 * (j 3).val; omega
  have hg : ((cfg1.win 1).blk t).view.emb (ix2 (j 0) (j 1))
      = ix2 ((((cfg1.win 2).blk t).view.emb j) 0) ((((cfg1.win 2).blk t).view.emb j) 1) := by
    funext a; apply Fin.ext
    match a with
    | ⟨0, _⟩ => show win1_1.index t (0 : Fin 2) * 8 + 1 * (j 0).val = win1_2.index t (0 : Fin 4) * 8 + 1 * (j 0).val; omega
    | ⟨1, _⟩ => show win1_1.index t (1 : Fin 2) * 64 + 1 * (j 1).val = win1_2.index t (1 : Fin 4) * 64 + 1 * (j 1).val; omega
  refine congrArg₂ (fun a b : EReal => a * b) ?_ ?_
  · exact congrArg (V c main_arg0) hx
  · exact congrArg (V c main_v20) hg

/-- Entry (b, ch, h, w) of the result array lies in the block of point h / 8. -/
private theorem scale_cover (i : S8x64x512x512.Idx) :
    ∃ t : Fin cfg1.N, (cfg1.win 2).flush t = true ∧ i ∈ ((cfg1.win 2).blk t).view.set := by
  have hN : cfg1.N = 64 := N_1
  have h0 : (i 0 : Nat) < 8 := (i 0).isLt
  have h1 : (i 1 : Nat) < 64 := (i 1).isLt
  have h2 : (i 2 : Nat) < 512 := (i 2).isLt
  have h3 : (i 3 : Nat) < 512 := (i 3).isLt
  obtain ⟨t, ht⟩ : ∃ t : Fin cfg1.N, t.val = (i 2 : Nat) / 8 := ⟨⟨(i 2 : Nat) / 8, by rw [hN]; omega⟩, rfl⟩
  obtain ⟨-, -, -, -, -, -, o0, o1, o2, o3⟩ := scaleIndex t
  refine ⟨t, flush1_2 t, ?_⟩
  show i ∈ ((View.whole main_v21).slice (win1_2.rect t)).set
  rw [View.set_slice_whole, Rect.mem_set_unit]
  intro a
  match a with
  | ⟨0, _⟩ => show win1_2.index t (0 : Fin 4) * 8 ≤ (i 0 : Nat) ∧ (i 0 : Nat) < win1_2.index t (0 : Fin 4) * 8 + 8; omega
  | ⟨1, _⟩ => show win1_2.index t (1 : Fin 4) * 64 ≤ (i 1 : Nat) ∧ (i 1 : Nat) < win1_2.index t (1 : Fin 4) * 64 + 64; omega
  | ⟨2, _⟩ => show win1_2.index t (2 : Fin 4) * 8 ≤ (i 2 : Nat) ∧ (i 2 : Nat) < win1_2.index t (2 : Fin 4) * 8 + 8; omega
  | ⟨3, _⟩ => show win1_2.index t (3 : Fin 4) * 512 ≤ (i 3 : Nat) ∧ (i 3 : Nat) < win1_2.index t (3 : Fin 4) * 512 + 512; omega

/-- The result array after the scaling region, from any entry contents. -/
theorem scale_result_of (c : Dev nD) :
    (dat1 (F := Ideal) V c).arrAt 2 cfg1.N = xTimesGate (V c main_arg0) (V c main_v20) :=
  (dat1 (F := Ideal) V c).arrAt_eq_of_cover 2 (xTimesGate (V c main_arg0) (V c main_v20))
    (fun t _ => flushed_scale V c t) scale_cover

end ScaleIdeal

variable (m : (ℓ : Loc nD τ sig) → Buf (Elt Ideal) ℓ) (ρ : Dev nD → PrngReg)

/-- The gate as the scaling region finds it. -/
abbrev gateArr (c : Dev nD) : FVec Ideal S8x64 .f32 := U4 m ρ c main_v20
/-- The input array as the scaling region finds it. -/
abbrev xArr4 (c : Dev nD) : FVec Ideal S8x64x512x512 .f32 := U4 m ρ c main_arg0

/-- The result array after the scaling region, entry by entry: x times the gate's entry of the same (b, ch). -/
theorem result_apply (c : Dev nD) (i : S8x64x512x512.Idx) :
    (((dat1 (F := Ideal) (U4 m ρ) c).arrAt 2 cfg1.N : FVec Ideal S8x64x512x512 .f32) i : EReal)
      = (xArr4 m ρ c i : EReal) * (gateArr m ρ c (ix2 (i 0) (i 1)) : EReal) :=
  congrFun (scale_result_of (U4 m ρ) c) i

end Cert.KernelIdeal.Val

end
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.Val.AccValue.lean ====
/-
  The reduction kernel's accumulators at the ideal instance, read at an index.

  After the last of the 32 points the running sum at (b, ch) is the sum of x[b, ch, h, w] over all 512 x 512 positions
  (h, w): each point adds one block of 16 rows, itself summed along w and then along its 16 rows, the 32 blocks tile
  the 512 rows, and addition on the extended reals is commutative and associative. In the same way the running maximum
  is the supremum of x[b, ch, h, w] over all (h, w). The scaled sum the kernel stores is the running sum times 1/262144
  (the kernel's literal is exactly 2^-18).
-/
import proofs.«167075_j11914239279387_1_alg».proof.Proof.KI.ReduceDat
import proofs.«167075_j11914239279387_1_alg».proof.Proof.LibExtremum
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

-- the TensorCore's buffer contents when the reduction region is entered, at the ideal instance
variable (V : (c : Dev nD) → (b : Ref sig .tc) → Buf (Elt Ideal) ((c : Thread nD τ).loc b))

/-- The input array x as the region finds it. -/
abbrev xarr (c : Dev nD) : FVec Ideal S8x64x512x512 .f32 := V c main_arg0

/-! ## The payloads read at an index (b, ch) -/

/-- Putting the lane coordinate w back into (b, ch, r) gives (b, ch, r, w). -/
theorem lift3 (b : Fin 8) (ch : Fin 64) (r : Fin 16) (w : Fin 512) :
    reduces_S8x64x16x512_S8x64x16.lift (ix3 b ch r) w = ix4 b ch r w := by
  funext a
  match a with
  | ⟨0, _⟩ => rfl
  | ⟨1, _⟩ => rfl
  | ⟨2, _⟩ => rfl
  | ⟨3, _⟩ => rfl

/-- Putting the row coordinate r back into (b, ch) gives (b, ch, r). -/
theorem lift2 (b : Fin 8) (ch : Fin 64) (r : Fin 16) :
    reduces_S8x64x16_S8x64.lift (ix2 b ch) r = ix3 b ch r := by
  funext a
  match a with
  | ⟨0, _⟩ => rfl
  | ⟨1, _⟩ => rfl
  | ⟨2, _⟩ => rfl

/-- A block summed along its lanes and then along its 16 rows: at (b, ch), the sum of the block's entries
    (b, ch, r, w) over all r and w. -/
theorem blockSum_apply (x0 : Vec Ideal S8x64x16x512 .f32) (hφ : FKind.Formats .f32)
    (h3 : (0x00000000#32 : BitVec 32) = FKind.add.neutral .f32 hφ) (b : Fin 8) (ch : Fin 64) :
    (multiReduction (F := Ideal) .add [2] S8x64
        (multiReduction (F := Ideal) .add [3] S8x64x16 x0 0x00000000#32 reduces_S8x64x16x512_S8x64x16 hφ h3)
        0x00000000#32 reduces_S8x64x16_S8x64 hφ h3 (ix2 b ch) : EReal)
      = ∑ r : Fin 16, ∑ w : Fin 512, (x0 (ix4 b ch r w) : EReal) := by
  refine (Ideal.multiReduction_add_single _ 0x00000000#32 reduces_S8x64x16_S8x64 hφ h3 (ix2 b ch)).trans ?_
  refine Finset.sum_congr rfl fun (r : Fin 16) _ => ?_
  refine (congrArg _ (lift2 b ch r)).trans ?_
  refine (Ideal.multiReduction_add_single x0 0x00000000#32 reduces_S8x64x16x512_S8x64x16 hφ h3 (ix3 b ch r)).trans ?_
  refine Finset.sum_congr rfl fun (w : Fin 512) _ => ?_
  exact congrArg x0 (lift3 b ch r w)

/-- The sum payload at (b, ch): what the running sum held there plus the block's sum. -/
theorem pay3_apply (x0 : Vec Ideal S8x64x16x512 .f32) (s : Vec Ideal S8x64 .f32) (b : Fin 8) (ch : Fin 64) :
    (k0_pay3 (F := Ideal) x0 s (ix2 b ch) : EReal) = (s (ix2 b ch) : EReal) + ∑ r : Fin 16, ∑ w : Fin 512, (x0 (ix4 b ch r w) : EReal) := by
  unfold k0_pay3
  rw [shapeCast_self, addf_apply]
  exact congrArg (s (ix2 b ch) + ·) (blockSum_apply x0 _ _ b ch)

/-- The fold of max from minus infinity over the coordinates of one axis, of a function read through a re-indexing,
    is the supremum of the function over that axis's coordinates. -/
theorem fold_max_comp {n : Nat} {ι : Type} (f : ι → EReal) (g : Fin n → ι) :
    (Finset.univ : Finset (Fin n)).fold max (⊥ : EReal) (f ∘ g) = ⨆ k : Fin n, f (g k) :=
  Cert.Extremum.fold_max_bot_univ (f ∘ g)

/-- A block's maximum along its lanes, from minus infinity: at (b, ch, r), the supremum of the entries (b, ch, r, w)
    over w. -/
theorem laneMax_apply (x0 : Vec Ideal S8x64x16x512 .f32) (hφ : FKind.Formats .f32)
    (h3 : (0xFF800000#32 : BitVec 32) = FKind.maximumf.neutral .f32 hφ) (b : Fin 8) (ch : Fin 64) (r : Fin 16) :
    (multiReduction (F := Ideal) .maximumf [3] S8x64x16 x0 0xFF800000#32 reduces_S8x64x16x512_S8x64x16 hφ h3 (ix3 b ch r) : EReal)
      = ⨆ w : Fin 512, (x0 (ix4 b ch r w) : EReal) := by
  refine (Ideal.multiReduction_maximumf_single (φ := .f32) (s := S8x64x16x512) (t := S8x64x16) (a := 3)
    x0 0xFF800000#32 reduces_S8x64x16x512_S8x64x16 hφ h3 (ix3 b ch r)).trans ?_
  rw [Cert.Extremum.ofBits_negInf_f32]
  refine (fold_max_comp _ _).trans ?_
  refine iSup_congr fun (w : Fin 512) => ?_
  exact congrArg x0 (lift3 b ch r w)

/-- Then along its 16 rows: at (b, ch), the supremum of the block's entries (b, ch, r, w) over all r and w. -/
theorem blockMax_apply (x0 : Vec Ideal S8x64x16x512 .f32) (hφ : FKind.Formats .f32)
    (h3 : (0xFF800000#32 : BitVec 32) = FKind.maximumf.neutral .f32 hφ) (b : Fin 8) (ch : Fin 64) :
    (multiReduction (F := Ideal) .maximumf [2] S8x64
        (multiReduction (F := Ideal) .maximumf [3] S8x64x16 x0 0xFF800000#32 reduces_S8x64x16x512_S8x64x16 hφ h3)
        0xFF800000#32 reduces_S8x64x16_S8x64 hφ h3 (ix2 b ch) : EReal)
      = ⨆ r : Fin 16, ⨆ w : Fin 512, (x0 (ix4 b ch r w) : EReal) := by
  refine (Ideal.multiReduction_maximumf_single (φ := .f32) (s := S8x64x16) (t := S8x64) (a := 2)
    (multiReduction (F := Ideal) .maximumf [3] S8x64x16 x0 0xFF800000#32 reduces_S8x64x16x512_S8x64x16 hφ h3)
    0xFF800000#32 reduces_S8x64x16_S8x64 hφ h3 (ix2 b ch)).trans ?_
  rw [Cert.Extremum.ofBits_negInf_f32]
  refine (fold_max_comp _ _).trans ?_
  refine iSup_congr fun (r : Fin 16) => ?_
  refine (congrArg _ (lift2 b ch r)).trans ?_
  exact laneMax_apply x0 hφ h3 b ch r

/-- The maximum payload at (b, ch): the larger of what the running maximum held there and the block's supremum. -/
theorem pay4_apply (x0 : Vec Ideal S8x64x16x512 .f32) (s : Vec Ideal S8x64 .f32) (b : Fin 8) (ch : Fin 64) :
    (k0_pay4 (F := Ideal) x0 s (ix2 b ch) : EReal) = max (s (ix2 b ch) : EReal) (⨆ r : Fin 16, ⨆ w : Fin 512, (x0 (ix4 b ch r w) : EReal)) := by
  unfold k0_pay4
  rw [shapeCast_self, maximumf_apply]
  exact congrArg (max (s (ix2 b ch))) (blockMax_apply x0 _ _ b ch)

/-- The sum starts from the zero splat. -/
theorem pay1_apply (j : S8x64.Idx) : (k0_pay1 (F := Ideal) j : EReal) = 0 := by
  unfold k0_pay1
  rw [shapeCast_self, broadcast_apply]
  exact Ideal.ofBits_zero_f32

/-- The maximum starts from the splat of minus infinity. -/
theorem pay2_apply (j : S8x64.Idx) : (k0_pay2 (F := Ideal) j : EReal) = ⊥ := by
  unfold k0_pay2
  rw [shapeCast_self, broadcast_apply]
  exact Cert.Extremum.ofBits_negInf_f32

/-- The kernel's scale literal: sign 0, exponent field 109, fraction 0, that is 2^23 * 2^(109 - 127 - 23) = 2^-18
    = 1/262144. -/
theorem ofBits_scale : (Ideal.ofBits .f32 0x36800000#32 : EReal) = ((1 / 262144 : ℝ) : EReal) := by
  simp [Ideal.ofBits, Ideal.ieee]
  rw [← EReal.coe_mul]
  refine congrArg _ ?_
  norm_num

/-! ## The 32 blocks of 16 rows tile the 512 rows -/

/-- Row r of block t is row 16 t + r of the array. -/
def brow (t : Fin 32) (r : Fin 16) : Fin 512 := ⟨16 * t.val + r.val, by have := t.isLt; have := r.isLt; omega⟩

theorem brow_val (t : Fin 32) (r : Fin 16) : (brow t r).val = 16 * t.val + r.val := rfl

/-- Every row of the array is exactly one row of exactly one block: row h is row h % 16 of block h / 16. -/
def blockRows : Fin 32 × Fin 16 ≃ Fin 512 where
  toFun p := brow p.1 p.2
  invFun h := (⟨h.val / 16, by have := h.isLt; omega⟩, ⟨h.val % 16, by omega⟩)
  left_inv p := by
    obtain ⟨t, r⟩ := p
    have := t.isLt
    have := r.isLt
    refine Prod.ext (Fin.ext ?_) (Fin.ext ?_)
    · show (16 * t.val + r.val) / 16 = t.val
      omega
    · show (16 * t.val + r.val) % 16 = r.val
      omega
  right_inv h := Fin.ext (by
    show 16 * (h.val / 16) + h.val % 16 = h.val
    omega)

/-- The blocks up to block 0 are block 0 alone. -/
theorem filter_le_zero : (Finset.univ.filter fun t : Fin 32 => t.val ≤ 0) = {0} := by
  ext t
  rw [Finset.mem_filter, Finset.mem_singleton]
  constructor
  · rintro ⟨_, h⟩
    exact Fin.ext (by show t.val = 0; omega)
  · rintro rfl
    exact ⟨Finset.mem_univ _, Nat.le_refl 0⟩

/-- A sum over the blocks up to block n + 1 is the sum over the blocks up to block n plus block n + 1's term. -/
theorem sum_filter_le_succ {M : Type} [AddCommMonoid M] (g : Fin 32 → M) (n : ℕ) (h : n + 1 < 32) :
    ∑ t ∈ Finset.univ.filter (fun t : Fin 32 => t.val ≤ n + 1), g t
      = (∑ t ∈ Finset.univ.filter (fun t : Fin 32 => t.val ≤ n), g t) + g ⟨n + 1, h⟩ := by
  have e : (Finset.univ.filter fun t : Fin 32 => t.val ≤ n + 1)
      = insert (⟨n + 1, h⟩ : Fin 32) (Finset.univ.filter fun t : Fin 32 => t.val ≤ n) := by
    ext t
    simp only [Finset.mem_filter, Finset.mem_univ, true_and, Finset.mem_insert, Fin.ext_iff]
    omega
  have hnot : (⟨n + 1, h⟩ : Fin 32) ∉ Finset.univ.filter fun t : Fin 32 => t.val ≤ n := by
    simp only [Finset.mem_filter, Finset.mem_univ, true_and]
    omega
  rw [e, Finset.sum_insert hnot, add_comm]

/-- A supremum over the blocks up to block 0 is block 0's term. -/
theorem iSup_le_zero (g : Fin 32 → EReal) : (⨆ t : Fin 32, ⨆ (_ : t.val ≤ 0), g t) = g 0 := by
  apply le_antisymm
  · refine iSup_le fun t => iSup_le fun ht => ?_
    have e : t = 0 := Fin.ext (by show t.val = 0; omega)
    rw [e]
  · exact le_iSup_of_le 0 (le_iSup_of_le (Nat.le_refl 0) le_rfl)

/-- A supremum over the blocks up to block n + 1 is the larger of the supremum over the blocks up to block n and
    block n + 1's term. -/
theorem iSup_le_succ (g : Fin 32 → EReal) (n : ℕ) (h : n + 1 < 32) :
    (⨆ t : Fin 32, ⨆ (_ : t.val ≤ n + 1), g t) = max (⨆ t : Fin 32, ⨆ (_ : t.val ≤ n), g t) (g ⟨n + 1, h⟩) := by
  apply le_antisymm
  · refine iSup_le fun t => iSup_le fun ht => ?_
    by_cases hc : t.val ≤ n
    · exact le_max_of_le_left (le_iSup_of_le t (le_iSup_of_le hc le_rfl))
    · have e : t = ⟨n + 1, h⟩ := Fin.ext (by show t.val = n + 1; omega)
      rw [e]
      exact le_max_right _ _
  · refine max_le (iSup_le fun t => iSup_le fun ht => ?_) ?_
    · exact le_iSup_of_le t (le_iSup_of_le (Nat.le_succ_of_le ht) le_rfl)
    · exact le_iSup_of_le ⟨n + 1, h⟩ (le_iSup_of_le (Nat.le_refl _) le_rfl)

/-! ## A block's entry read off the array -/

/-- The input window's index map over the grid: block t sits at block position (0, 0, t, 0). -/
theorem idx_facts : ∀ t : Fin grid0.N, win0_0.index t (0 : Fin 4) = 0 ∧ win0_0.index t (1 : Fin 4) = 0
    ∧ win0_0.index t (2 : Fin 4) = t.val ∧ win0_0.index t (3 : Fin 4) = 0 := by decide +kernel

/-- Entry (b, ch, r, w) of block t is x[b, ch, 16 t + r, w]: on each axis the block's position times the block's extent
    plus the coordinate inside the block. -/
theorem iblk0_apply (c : Dev nD) (t : Fin cfg0.N) (b : Fin 8) (ch : Fin 64) (r : Fin 16) (w : Fin 512)
    (h : Fin 512) (hv : h.val = 16 * t.val + r.val) :
    ((iblk0 (F := Ideal) V c 0 t : Vec Ideal S8x64x16x512 .f32) (ix4 b ch r w) : EReal) = (xarr V c (ix4 b ch h w) : EReal) := by
  have hi := idx_facts t
  unfold iblk0
  rw [View.read_apply]
  show V c main_arg0 (((cfg0.win 0).blk t).view.emb (ix4 b ch r w)) = V c main_arg0 (ix4 b ch h w)
  congr 1
  funext a
  apply Fin.ext
  match a with
  | ⟨0, _⟩ => show win0_0.index t 0 * 8 + 1 * b.val = b.val; rw [hi.1]; omega
  | ⟨1, _⟩ => show win0_0.index t 1 * 64 + 1 * ch.val = ch.val; rw [hi.2.1]; omega
  | ⟨2, _⟩ => show win0_0.index t 2 * 16 + 1 * r.val = h.val; rw [hi.2.2.1, hv]; omega
  | ⟨3, _⟩ => show win0_0.index t 3 * 512 + 1 * w.val = w.val; rw [hi.2.2.2]; omega

/-- The sum of block t's entries at (b, ch), read off the array: x[b, ch, 16 t + r, w] summed over r and w. -/
def blkSum (c : Dev nD) (b : Fin 8) (ch : Fin 64) (t : Fin 32) : EReal :=
  ∑ r : Fin 16, ∑ w : Fin 512, (xarr V c (ix4 b ch (brow t r) w) : EReal)

/-- The supremum of block t's entries at (b, ch), read off the array. -/
def blkSup (c : Dev nD) (b : Fin 8) (ch : Fin 64) (t : Fin 32) : EReal :=
  ⨆ r : Fin 16, ⨆ w : Fin 512, (xarr V c (ix4 b ch (brow t r) w) : EReal)

/-- Point n adds block n's sum to what the running sum held. -/
theorem step_sum (c : Dev nD) (n : ℕ) (hn : n < cfg0.N) (t : Fin 32) (ht : t.val = n) (s : Vec Ideal S8x64 .f32)
    (b : Fin 8) (ch : Fin 64) :
    (k0_pay3 (F := Ideal) (iblk0 (F := Ideal) V c 0 ⟨n, hn⟩) s (ix2 b ch) : EReal) = (s (ix2 b ch) : EReal) + blkSum V c b ch t := by
  refine (pay3_apply (iblk0 (F := Ideal) V c 0 ⟨n, hn⟩) s b ch).trans ?_
  refine congrArg (s (ix2 b ch) + ·) ?_
  refine Finset.sum_congr rfl fun r _ => Finset.sum_congr rfl fun w _ => ?_
  exact iblk0_apply V c ⟨n, hn⟩ b ch r w (brow t r) (by rw [brow_val, ht])

/-- Point n takes the larger of what the running maximum held and block n's supremum. -/
theorem step_max (c : Dev nD) (n : ℕ) (hn : n < cfg0.N) (t : Fin 32) (ht : t.val = n) (s : Vec Ideal S8x64 .f32)
    (b : Fin 8) (ch : Fin 64) :
    (k0_pay4 (F := Ideal) (iblk0 (F := Ideal) V c 0 ⟨n, hn⟩) s (ix2 b ch) : EReal) = max (s (ix2 b ch) : EReal) (blkSup V c b ch t) := by
  refine (pay4_apply (iblk0 (F := Ideal) V c 0 ⟨n, hn⟩) s b ch).trans ?_
  refine congrArg (max (s (ix2 b ch))) ?_
  refine iSup_congr fun r => iSup_congr fun w => ?_
  exact iblk0_apply V c ⟨n, hn⟩ b ch r w (brow t r) (by rw [brow_val, ht])

/-! ## The accumulators after point n, by induction on n -/

/-- After point n the running sum at (b, ch) is the sum of the blocks up to block n. -/
theorem acc_sum_upto (c : Dev nD) : ∀ (n : ℕ) (hn : n < cfg0.N) (b : Fin 8) (ch : Fin 64),
    ((acc0 (F := Ideal) V c n hn).1 (ix2 b ch) : EReal) = ∑ t ∈ Finset.univ.filter (fun t : Fin 32 => t.val ≤ n), blkSum V c b ch t
  | 0, hn, b, ch => by
    rw [acc0_zero]
    refine (step_sum V c 0 hn 0 rfl _ b ch).trans ?_
    rw [pay1_apply, zero_add, filter_le_zero, Finset.sum_singleton]
  | n + 1, hn, b, ch => by
    have hN : cfg0.N = 32 := N_0
    have h32 : n + 1 < 32 := by omega
    rw [acc0_succ]
    refine (step_sum V c (n + 1) hn ⟨n + 1, h32⟩ rfl _ b ch).trans ?_
    rw [acc_sum_upto c n _ b ch, sum_filter_le_succ _ n h32]

/-- After point n the running maximum at (b, ch) is the supremum of the blocks up to block n. -/
theorem acc_max_upto (c : Dev nD) : ∀ (n : ℕ) (hn : n < cfg0.N) (b : Fin 8) (ch : Fin 64),
    ((acc0 (F := Ideal) V c n hn).2 (ix2 b ch) : EReal) = ⨆ t : Fin 32, ⨆ (_ : t.val ≤ n), blkSup V c b ch t
  | 0, hn, b, ch => by
    rw [acc0_zero]
    refine (step_max V c 0 hn 0 rfl _ b ch).trans ?_
    rw [pay2_apply, max_bot_left, iSup_le_zero]
  | n + 1, hn, b, ch => by
    have hN : cfg0.N = 32 := N_0
    have h32 : n + 1 < 32 := by omega
    rw [acc0_succ]
    refine (step_max V c (n + 1) hn ⟨n + 1, h32⟩ rfl _ b ch).trans ?_
    rw [acc_max_upto c n _ b ch, iSup_le_succ _ n h32]

/-! ## After the last point -/

/-- The running sum after the last point: the sum over all 512 x 512 positions. -/
theorem acc_sum (c : Dev nD) (j : S8x64.Idx) :
    ((acc0 (F := Ideal) V c 31 (by decide)).1 j : EReal) = ∑ hh : Fin 512, ∑ w : Fin 512, (xarr V c (ix4 (j 0) (j 1) hh w) : EReal) := by
  refine (congrArg (fun i => ((acc0 (F := Ideal) V c 31 (by decide)).1 i : EReal)) (eq_ix2 j)).trans ?_
  refine (acc_sum_upto V c 31 _ (j 0) (j 1)).trans ?_
  rw [Finset.filter_true_of_mem (fun t _ => by have := t.isLt; omega)]
  unfold blkSum
  exact (Fintype.sum_prod_type (fun p : Fin 32 × Fin 16 => ∑ w : Fin 512, (xarr V c (ix4 (j 0) (j 1) (brow p.1 p.2) w) : EReal))).symm.trans
    (Equiv.sum_comp blockRows (fun hh : Fin 512 => ∑ w : Fin 512, (xarr V c (ix4 (j 0) (j 1) hh w) : EReal)))

/-- The running maximum after the last point: the supremum over all 512 x 512 positions. -/
theorem acc_max (c : Dev nD) (j : S8x64.Idx) :
    ((acc0 (F := Ideal) V c 31 (by decide)).2 j : EReal) = ⨆ hh : Fin 512, ⨆ w : Fin 512, (xarr V c (ix4 (j 0) (j 1) hh w) : EReal) := by
  refine (congrArg (fun i => ((acc0 (F := Ideal) V c 31 (by decide)).2 i : EReal)) (eq_ix2 j)).trans ?_
  refine (acc_max_upto V c 31 _ (j 0) (j 1)).trans ?_
  refine (iSup_congr fun t => iSup_pos (by have := t.isLt; omega)).trans ?_
  unfold blkSup
  exact (iSup_prod (f := fun p : Fin 32 × Fin 16 => ⨆ w : Fin 512, (xarr V c (ix4 (j 0) (j 1) (brow p.1 p.2) w) : EReal))).symm.trans
    (Equiv.iSup_comp (g := fun hh : Fin 512 => ⨆ w : Fin 512, (xarr V c (ix4 (j 0) (j 1) hh w) : EReal)) blockRows)

/-- The stored average: the running sum times 1/262144. -/
theorem scaled_apply (s : Vec Ideal S8x64 .f32) (j : S8x64.Idx) :
    (k0_pay5 (F := Ideal) s j : EReal) = (s j : EReal) * ((1 / 262144 : ℝ) : EReal) := by
  unfold k0_pay5
  rw [mulf_apply, broadcast_apply]
  exact congrArg (s j * ·) ofBits_scale

end Cert.KernelIdeal.Val

end
-- ==== Proof.Val.RefReduce.lean ====
/-
  The reference's two reductions and its mean at the ideal instance, read at an index.

  The host's sum over the axes (2, 3) of x, from the initial value zero, is at (b, ch) the sum of x[b, ch, h, w] over all
  512 x 512 positions; its maximum-reduce over the same axes, from minus infinity, is the supremum of the same entries;
  and the division of an array by the splat 262144 is the product with 1/262144 on every extended real.

  Both reductions run over the set of indices of x whose coordinates on the two kept axes are (b, ch). That set is the
  image of the pairs (h, w) under the injection (h, w) -> (b, ch, h, w): an index lies in it exactly when its first two
  coordinates are b and ch, and then it is (b, ch, h, w) for its own last two coordinates. A sum over the image of an
  injection is the sum over its domain, here the pairs, which splits into the double sum; a fold of max from the bottom
  element over the image is the supremum over the pairs, which splits into the double supremum. The divisor's word has
  sign 0, exponent 145 and fraction 0, so it denotes 2^(145 - 127) = 2^18 = 262144, a nonzero real, and dividing an
  extended real by a nonzero real is multiplying by its reciprocal, at the infinities too.
-/
import proofs.«167075_j11914239279387_1_alg».proof.Proof.Gen.ReferenceIdeal
import proofs.«167075_j11914239279387_1_alg».proof.Proof.LibExtremum
import Idealize.ShloMosaic.PureOps.Ideal.Laws
import Idealize.ShloMosaic.Lib.ValueIdx
import Idealize.ShloMosaic.Lib.Pipeline.Value

set_option maxRecDepth 16384

noncomputable section

namespace Cert.ReferenceIdeal.Val

open Cert.ReferenceIdeal Cert.ReferenceIdeal.Gen
open Idealize.ShloMosaic Idealize.ShloMosaic.ValueIdx

/-- An index of x drops onto (b, ch) exactly when its first two coordinates are b and ch. -/
private theorem drop_eq_iff (h : S8x64x512x512.ReducesTo [2, 3] S8x64) (i : S8x64x512x512.Idx) (j : S8x64.Idx) :
    h.drop i = j ↔ (i 0).val = (j 0).val ∧ (i 1).val = (j 1).val := by
  rw [funext_iff, Fin.forall_fin_two]
  simp only [Fin.ext_iff]
  rw [h.drop_apply_val_of_eq i 0 0, h.drop_apply_val_of_eq i 1 1]

/-- The positions (h, w) of one channel image, as indices of x over (b, ch): an injection. -/
private def fibre (j : S8x64.Idx) : Fin 512 × Fin 512 ↪ S8x64x512x512.Idx where
  toFun p := ix4 (j 0) (j 1) p.1 p.2
  inj' p q e := Prod.ext (congrFun e 2) (congrFun e 3)

private theorem fibre_apply (j : S8x64.Idx) (p : Fin 512 × Fin 512) : fibre j p = ix4 (j 0) (j 1) p.1 p.2 := rfl

/-- The indices of x that drop onto (b, ch) are exactly the positions of that channel image. -/
private theorem filter_drop_eq (h : S8x64x512x512.ReducesTo [2, 3] S8x64) (j : S8x64.Idx)
    [DecidablePred fun i : S8x64x512x512.Idx => h.drop i = j] :
    (Finset.univ.filter fun i : S8x64x512x512.Idx => h.drop i = j) = Finset.univ.map (fibre j) := by
  ext i
  simp only [Finset.mem_filter, Finset.mem_univ, true_and, Finset.mem_map, drop_eq_iff, fibre_apply]
  constructor
  · rintro ⟨h0, h1⟩
    refine ⟨(i 2, i 3), ?_⟩
    funext a
    match a with
    | ⟨0, _⟩ => exact Fin.ext h0.symm
    | ⟨1, _⟩ => exact Fin.ext h1.symm
    | ⟨2, _⟩ => rfl
    | ⟨3, _⟩ => rfl
  · rintro ⟨p, rfl⟩
    exact ⟨rfl, rfl⟩

/-- The f32 word 0x48800000 is the real 262144 = 2^18. -/
private theorem ofBits_262144 : Ideal.ofBits .f32 0x48800000#32 = ((262144 : ℝ) : EReal) := by
  simp [Ideal.ofBits, Ideal.ieee, -EReal.coe_mul]; norm_num

/-- The host's two-axis sum at (b, ch). -/
theorem ref_sum (x : FVec Ideal S8x64x512x512 .f32) (j : S8x64.Idx) :
    (Host.reduceAdd (F := Ideal) x (constant (F := Ideal) S_ .f32 0x00000000#32) reducesTo_S8x64x512x512_S8x64_d2_3 h_S_ j : EReal)
      = ∑ hh : Fin 512, ∑ w : Fin 512, (x (ix4 (j 0) (j 1) hh w) : EReal) := by
  show Ideal.hostReduceAdd reducesTo_S8x64x512x512_S8x64_d2_3 x (Ideal.ofBits .f32 0x00000000#32) j = _
  unfold Ideal.hostReduceAdd
  rw [Ideal.ofBits_zero_f32, zero_add, filter_drop_eq, Finset.sum_map, Fintype.sum_prod_type]
  rfl

/-- The host's two-axis maximum at (b, ch). -/
theorem ref_max (x : FVec Ideal S8x64x512x512 .f32) (j : S8x64.Idx) :
    (Host.reduce (FloatOps.maximumf (F := Ideal) (φ := .f32)) x (constant (F := Ideal) S_ .f32 0xFF800000#32) reducesTo_S8x64x512x512_S8x64_d2_3 h_S_ j : EReal)
      = ⨆ hh : Fin 512, ⨆ w : Fin 512, (x (ix4 (j 0) (j 1) hh w) : EReal) := by
  rw [Host.reduce_eq_fold (FloatOps.maximumf (F := Ideal) (φ := .f32)) x _ reducesTo_S8x64x512x512_S8x64_d2_3 h_S_ j,
    filter_drop_eq, Finset.fold_map]
  have hinit : (constant (F := Ideal) S_ .f32 0xFF800000#32 (Shape.Idx.first h_S_) : EReal) = ⊥ :=
    Cert.Extremum.ofBits_negInf_f32
  rw [hinit]
  show Finset.univ.fold max (⊥ : EReal) (fun p : Fin 512 × Fin 512 => (x (ix4 (j 0) (j 1) p.1 p.2) : EReal)) = _
  rw [Cert.Extremum.fold_max_bot_univ, iSup_prod]

/-- The mean's division by the splat 262144 is the product with 1/262144. -/
theorem ref_mean (s : FVec Ideal S8x64 .f32) (j : S8x64.Idx) :
    (Host.divf (F := Ideal) s (broadcastInDim S8x64 ![] bcast_S_S8x64 (constant (F := Ideal) S_ .f32 0x48800000#32)) j : EReal)
      = (s j : EReal) * ((1 / 262144 : ℝ) : EReal) := by
  show Ideal.div (s j) (Ideal.ofBits .f32 0x48800000#32) = _
  rw [ofBits_262144]
  exact Ideal.div_coe (by norm_num) (s j)

end Cert.ReferenceIdeal.Val

end
-- ==== Proof.Val.Bridge.lean ====
/-
  The two programs compute one function at the ideal instance.

  The kernel's result array is, entry by entry, x times the gate of what its reduction region left; the reference's is
  x times the gate of its own mean and maximum. The gate is the same function on both sides, so it is enough that the
  values going in agree: the kernel's stored average (the running sum of all 512 x 512 entries times 2^-18) is the
  reference's mean (the same sum divided by 2^18), and the kernel's running maximum is the reference's maximum (both
  the supremum of the same entries).
-/
import proofs.«167075_j11914239279387_1_alg».proof.Proof.KI.Whole
import proofs.«167075_j11914239279387_1_alg».proof.Proof.Val.Gate
import proofs.«167075_j11914239279387_1_alg».proof.Proof.Val.GateValue
import proofs.«167075_j11914239279387_1_alg».proof.Proof.Val.PipeValue
import proofs.«167075_j11914239279387_1_alg».proof.Proof.Val.AccValue
import proofs.«167075_j11914239279387_1_alg».proof.Proof.Val.RefReduce
import proofs.«167075_j11914239279387_1_alg».proof.Proof.Val.RefTerm

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Frm Cert.KernelIdeal.Val

variable (m : (ℓ : Loc nD τ sig) → Buf (Elt Ideal) ℓ) (ρ : Dev nD → PrngReg)

/-- The input array x at launch. -/
abbrev x0 (c : Dev nD) : FVec Ideal S8x64x512x512 .f32 := m ((c.tc : Thread nD τ).loc main_arg0)

/-- The kernel's stored average is the reference's mean. -/
theorem avg_bridge (c : Dev nD) :
    (k0_pay5 (acc0 (F := Ideal) (U0 m ρ) c 31 (by decide)).1 : FVec Ideal S8x64 .f32) = Cert.ReferenceIdeal.Val.refAvg (x0 m c) := by
  funext j
  refine (Cert.KernelIdeal.Val.scaled_apply _ j).trans ?_
  rw [acc_sum (U0 m ρ) c j]
  unfold Cert.ReferenceIdeal.Val.refAvg
  refine Eq.symm ((Cert.ReferenceIdeal.Val.ref_mean _ j).trans ?_)
  rw [Cert.ReferenceIdeal.Val.ref_sum (x0 m c) j]

/-- The kernel's running maximum is the reference's maximum. -/
theorem max_bridge (c : Dev nD) :
    ((acc0 (F := Ideal) (U0 m ρ) c 31 (by decide)).2 : FVec Ideal S8x64 .f32) = Cert.ReferenceIdeal.Val.refMax (x0 m c) := by
  funext j
  refine (acc_max (U0 m ρ) c j).trans ?_
  unfold Cert.ReferenceIdeal.Val.refMax
  refine Eq.symm ((Cert.ReferenceIdeal.Val.ref_max (x0 m c) j).trans ?_)
  rfl

/-- The gate the scaling region finds is the gate of the reference's mean and maximum. -/
theorem gate_bridge (c : Dev nD) :
    (W4 m ρ c (Proc.devRef .tc main_v20) : FVec Ideal S8x64 .f32)
      = gateOf (Cert.ReferenceIdeal.Val.refAvg (x0 m c)) (Cert.ReferenceIdeal.Val.refMax (x0 m c))
          (m ((c : Thread nD τ).loc main_arg1)) (m ((c : Thread nD τ).loc main_arg2)) := by
  rw [gate_eq m ρ c, W1_main_v0_0 m ρ c, W1_main_v0_1 m ρ c, avg_eq m ρ c, max_eq m ρ c, avg_bridge m ρ c, max_bridge m ρ c]

/-- The kernel's result array is the reference's result term of the same arguments. -/
theorem result_bridge (c : Dev nD) :
    ((dat1 (F := Ideal) (U4 m ρ) c).arrAt 2 cfg1.N : FVec Ideal S8x64x512x512 .f32)
      = mulf (x0 m c) (broadcastInDim Cert.ReferenceIdeal.S8x64x512x512 ![0, 1, 2, 3] Cert.ReferenceIdeal.Gen.bcast_S8x64x1x1_S8x64x512x512_0_1_2_3
          (broadcastInDim Cert.ReferenceIdeal.S8x64x1x1 ![0, 1] Cert.ReferenceIdeal.Gen.bcast_S8x64_S8x64x1x1_0_1
            (gateOf (Cert.ReferenceIdeal.Val.refAvg (x0 m c)) (Cert.ReferenceIdeal.Val.refMax (x0 m c))
              (m ((c : Thread nD τ).loc main_arg1)) (m ((c : Thread nD τ).loc main_arg2))))) := by
  funext i
  refine (result_apply m ρ c i).trans ?_
  refine Eq.symm ((Cert.ReferenceIdeal.Val.scaled_apply _ _ i).trans ?_)
  have hx : xArr4 m ρ c = x0 m c := W4_main_arg0 m ρ c
  have hg : gateArr m ρ c = gateOf (Cert.ReferenceIdeal.Val.refAvg (x0 m c)) (Cert.ReferenceIdeal.Val.refMax (x0 m c))
      (m ((c : Thread nD τ).loc main_arg1)) (m ((c : Thread nD τ).loc main_arg2)) := gate_bridge m ρ c
  rw [hx, hg]

end Cert.Bridge

end
-- ==== Proof.lean ====
/-
  The certificate: a channel-attention gate computed by two Pallas kernels is the plain jnp computation.

  For x : f32[8, 64, 512, 512] the program reduces x over its last two axes to a mean and a maximum per (b, ch), passes
  [mean | max] through two small matrix products with a leaky-ReLU between them and a sigmoid after them, scales the
  sigmoid into [0.8, 1.2], and multiplies x by that gate along (b, ch). The kernel program does the reduction in a first
  region that walks 32 blocks of 16 rows keeping a running sum and a running maximum in scratch, the small products on
  the host, and the final product in a second region of 64 blocks of 8 rows.

  Frames: both kernel programs (the printed one at the word level and its reading at the ideal instance) run to the end
  from any memory with zero counters and leave the three arguments as launched: one run theorem per program names every
  unscoped buffer at the end. The reference's frame is its run with the result dropped.
  Values at the ideal instance: the running sum of all blocks is the sum over all 512 x 512 positions, and times 2^-18
  it is that sum divided by 262144; the running maximum is the supremum over the same positions; the host operations
  between the regions are literally the reference's; the second region writes x times the gate, block by block.
-/
import proofs.«167075_j11914239279387_1_alg».proof.Defs
import proofs.«167075_j11914239279387_1_alg».proof.Proof.Gen.Kernel
import proofs.«167075_j11914239279387_1_alg».proof.Proof.Gen.KernelIdeal
import proofs.«167075_j11914239279387_1_alg».proof.Proof.Gen.ReferenceIdeal
import proofs.«167075_j11914239279387_1_alg».proof.Proof.Gen.Pre_finite_inputs
import proofs.«167075_j11914239279387_1_alg».proof.Proof.KB.Whole
import proofs.«167075_j11914239279387_1_alg».proof.Proof.KI.Whole
import proofs.«167075_j11914239279387_1_alg».proof.Proof.Val.RefRun
import proofs.«167075_j11914239279387_1_alg».proof.Proof.Val.RefTerm
import proofs.«167075_j11914239279387_1_alg».proof.Proof.Val.Bridge
import Idealize.ShloMosaic.Adequacy
import Idealize.ShloMosaic.Init

noncomputable section

namespace Cert.Proof

open Idealize.ShloMosaic Idealize.SL.Sem

/-- The printed program runs and leaves its arguments unchanged. -/
theorem frame_k : Cert.frame_Kernel := fun m ρ _ => Cert.Kernel.Frm.frame m ρ

/-- So does its reading at the ideal instance. -/
theorem frame_ki : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both programs end with the same result array: the kernel's run names it as
    what the scaling region's write-backs leave, the reference's as its composed term, and the two are one function of
    the arguments. -/
theorem algebraic : Cert.algebraic_KernelIdeal_ReferenceIdeal := by
  intro m ρ m' ρ' _ hagree
  refine ⟨fun c => (Cert.KernelIdeal.Frm.dat1 (F := Ideal) (Cert.KernelIdeal.Frm.U4 m ρ) c).arrAt 2 Cert.KernelIdeal.cfg1.N,
    Cert.KernelIdeal.Frm.run_result m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact (Cert.ReferenceIdeal.Val.ref_term_eq _ _ _).trans (Cert.Bridge.result_bridge m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
